-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x12 : Shape := ⟨2, ![1048576, 12]⟩
abbrev S7x12 : Shape := ⟨2, ![7, 12]⟩
abbrev S7x1 : Shape := ⟨2, ![7, 1]⟩
abbrev S7x7 : Shape := ⟨2, ![7, 7]⟩
abbrev S1x7 : Shape := ⟨2, ![1, 7]⟩
abbrev S1x1 : Shape := ⟨2, ![1, 1]⟩
abbrev S_ : Shape := ⟨0, ![]⟩

class Facts : Prop where
  bcast_S_S1048576x12 : S_.BroadcastsInDim S1048576x12 (![] : Fin 0 → Fin S1048576x12.rank)
  reducesTo_S1048576x12_S_d0_1 : S1048576x12.ReducesTo [0, 1] S_
  h_S_ : 0 < S_.numel
  bcast_S_S7x12 : S_.BroadcastsInDim S7x12 (![] : Fin 0 → Fin S7x12.rank)
  reducesTo_S7x12_S_d0_1 : S7x12.ReducesTo [0, 1] S_
  bcast_S_S7x1 : S_.BroadcastsInDim S7x1 (![] : Fin 0 → Fin S7x1.rank)
  reducesTo_S7x1_S_d0_1 : S7x1.ReducesTo [0, 1] S_
  bcast_S_S7x7 : S_.BroadcastsInDim S7x7 (![] : Fin 0 → Fin S7x7.rank)
  reducesTo_S7x7_S_d0_1 : S7x7.ReducesTo [0, 1] S_
  bcast_S_S1x7 : S_.BroadcastsInDim S1x7 (![] : Fin 0 → Fin S1x7.rank)
  reducesTo_S1x7_S_d0_1 : S1x7.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S7x1 .f32) (main_arg5 : FVec F S1x7 .f32) (main_arg6 : FVec F S1x1 .f32) (main_v13 : IVec S_ 1) (main_v16 : IVec S7x7 1) : IVec S_ 1 :=
  let main_c_5 : IVec S_ 1 := constantI S_ 1 1#1
  let main_v17 : IVec S_ 1 := (fun x v => Host.reduce IntOp.andi x v reducesTo_S7x7_S_d0_1 h_S_) main_v16 main_c_5
  let main_v18 : IVec S_ 1 := andi main_v13 main_v17
  let main_v19 : FVec F S7x1 .f32 := Host.absf main_arg4
  let main_cst_6 : FVec F S_ .f32 := constant S_ .f32 0x7F800000#32
  let main_v20 : FVec F S7x1 .f32 := broadcastInDim S7x1 ![] bcast_S_S7x1 main_cst_6
  let main_v21 : IVec S7x1 1 := cmpf .olt main_v19 main_v20
  let main_c_7 : IVec S_ 1 := constantI S_ 1 1#1
  let main_v22 : IVec S_ 1 := (fun x v => Host.reduce IntOp.andi x v reducesTo_S7x1_S_d0_1 h_S_) main_v21 main_c_7
  let main_v23 : IVec S_ 1 := andi main_v18 main_v22
  let main_v24 : FVec F S1x7 .f32 := Host.absf main_arg5
  let main_cst_8 : FVec F S_ .f32 := constant S_ .f32 0x7F800000#32
  let main_v25 : FVec F S1x7 .f32 := broadcastInDim S1x7 ![] bcast_S_S1x7 main_cst_8
  let main_v26 : IVec S1x7 1 := cmpf .olt main_v24 main_v25
  let main_c_9 : IVec S_ 1 := constantI S_ 1 1#1
  let main_v27 : IVec S_ 1 := (fun x v => Host.reduce IntOp.andi x v reducesTo_S1x7_S_d0_1 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  main_v33

def fn {F : FTy → Type} [FloatOps F] (main_arg0 : FVec F S1048576x12 .f32) (main_arg1 : FVec F S7x12 .f32) (main_arg2 : FVec F S7x1 .f32) (main_arg3 : FVec F S7x7 .f32) (main_arg4 : FVec F S7x1 .f32) (main_arg5 : FVec F S1x7 .f32) (main_arg6 : FVec F S1x1 .f32) : IVec S_ 1 :=
  let main_v0 : FVec F S1048576x12 .f32 := Host.absf main_arg0
  let main_cst : FVec F S_ .f32 := constant S_ .f32 0x7F800000#32
  let main_v1 : FVec F S1048576x12 .f32 := broadcastInDim S1048576x12 ![] bcast_S_S1048576x12 main_cst
  let main_v2 : IVec S1048576x12 1 := cmpf .olt main_v0 main_v1
  let main_c : IVec S_ 1 := constantI S_ 1 1#1
  let main_v3 : IVec S_ 1 := (fun x v => Host.reduce IntOp.andi x v reducesTo_S1048576x12_S_d0_1 h_S_) main_v2 main_c
  let main_v4 : FVec F S7x12 .f32 := Host.absf main_arg1
  let main_cst_0 : FVec F S_ .f32 := constant S_ .f32 0x7F800000#32
  let main_v5 : FVec F S7x12 .f32 := broadcastInDim S7x12 ![] bcast_S_S7x12 main_cst_0
  let main_v6 : IVec S7x12 1 := cmpf .olt main_v4 main_v5
  let main_c_1 : IVec S_ 1 := constantI S_ 1 1#1
  let main_v7 : IVec S_ 1 := (fun x v => Host.reduce IntOp.andi x v reducesTo_S7x12_S_d0_1 h_S_) main_v6 main_c_1
  let main_v8 : IVec S_ 1 := andi main_v3 main_v7
  let main_v9 : FVec F S7x1 .f32 := Host.absf main_arg2
  let main_cst_2 : FVec F S_ .f32 := constant S_ .f32 0x7F800000#32
  let main_v10 : FVec F S7x1 .f32 := broadcastInDim S7x1 ![] bcast_S_S7x1 main_cst_2
  let main_v11 : IVec S7x1 1 := cmpf .olt main_v9 main_v10
  let main_c_3 : IVec S_ 1 := constantI S_ 1 1#1
  let main_v12 : IVec S_ 1 := (fun x v => Host.reduce IntOp.andi x v reducesTo_S7x1_S_d0_1 h_S_) main_v11 main_c_3
  let main_v13 : IVec S_ 1 := andi main_v8 main_v12
  let main_v14 : FVec F S7x7 .f32 := Host.absf main_arg3
  let main_cst_4 : FVec F S_ .f32 := constant S_ .f32 0x7F800000#32
  let main_v15 : FVec F S7x7 .f32 := broadcastInDim S7x7 ![] bcast_S_S7x7 main_cst_4
  let main_v16 : IVec S7x7 1 := cmpf .olt main_v14 main_v15
  fn_part1 (F := F) main_arg4 main_arg5 main_arg6 main_v13 main_v16
-- ==== Kernel.lean ====
abbrev S1048576x12 : Shape := ⟨2, ![1048576, 12]⟩
abbrev S7x12 : Shape := ⟨2, ![7, 12]⟩
abbrev S7x1 : Shape := ⟨2, ![7, 1]⟩
abbrev S7x7 : Shape := ⟨2, ![7, 7]⟩
abbrev S1x7 : Shape := ⟨2, ![1, 7]⟩
abbrev S1x1 : Shape := ⟨2, ![1, 1]⟩
abbrev S12x1048576 : Shape := ⟨2, ![12, 1048576]⟩
abbrev S_ : Shape := ⟨0, ![]⟩
abbrev S16x32 : Shape := ⟨2, ![16, 32]⟩
abbrev S1 : Shape := ⟨1, ![1]⟩
abbrev S2 : Shape := ⟨1, ![2]⟩
abbrev S1x1048576 : Shape := ⟨2, ![1, 1048576]⟩
abbrev S1048576x1 : Shape := ⟨2, ![1048576, 1]⟩
abbrev S12x131072 : Shape := ⟨2, ![12, 131072]⟩
abbrev S1x131072 : Shape := ⟨2, ![1, 131072]⟩
abbrev S32x131072 : Shape := ⟨2, ![32, 131072]⟩
abbrev S16x131072 : Shape := ⟨2, ![16, 131072]⟩
abbrev S7x131072 : Shape := ⟨2, ![7, 131072]⟩
abbrev S8x131072 : Shape := ⟨2, ![8, 131072]⟩

abbrev nBuf : Space → Nat
  | .hbm => 30
  | .vmem => 9
  | .smem => 0
  | _ => 0

abbrev bufTy : (tb : Table) → Fin (tcTables nBuf tb) → BufTy
  | .hbm, ⟨0, _⟩ => ⟨S1048576x12, .f32⟩
  | .hbm, ⟨1, _⟩ => ⟨S7x12, .f32⟩
  | .hbm, ⟨2, _⟩ => ⟨S7x1, .f32⟩
  | .hbm, ⟨3, _⟩ => ⟨S7x7, .f32⟩
  | .hbm, ⟨4, _⟩ => ⟨S7x1, .f32⟩
  | .hbm, ⟨5, _⟩ => ⟨S1x7, .f32⟩
  | .hbm, ⟨6, _⟩ => ⟨S1x1, .f32⟩
  | .hbm, ⟨7, _⟩ => ⟨S12x1048576, .f32⟩
  | .hbm, ⟨8, _⟩ => ⟨S_, .f32⟩
  | .hbm, ⟨9, _⟩ => ⟨S16x32, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S16x32, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S16x32, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S16x32, .f32⟩
  | .hbm, ⟨28, _⟩ => ⟨S1x1048576, .f32⟩
  | .hbm, ⟨29, _⟩ => ⟨S1048576x1, .f32⟩
  | .local _ .vmem, ⟨0, _⟩ => ⟨S12x131072, .f32⟩
  | .local _ .vmem, ⟨1, _⟩ => ⟨S12x131072, .f32⟩
  | .local _ .vmem, ⟨2, _⟩ => ⟨S16x32, .f32⟩
  | .local _ .vmem, ⟨3, _⟩ => ⟨S7x1, .f32⟩
  | .local _ .vmem, ⟨4, _⟩ => ⟨S7x1, .f32⟩
  | .local _ .vmem, ⟨5, _⟩ => ⟨S1x1, .f32⟩
  | .local _ .vmem, ⟨6, _⟩ => ⟨S1x131072, .f32⟩
  | .local _ .vmem, ⟨7, _⟩ => ⟨S1x131072, .f32⟩
  | .local _ .vmem, ⟨8, _⟩ => ⟨S32x131072, .bf16⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_c : Ref sig .tc := ⟨.hbm, 10, rfl⟩
abbrev main_call0_v2 : Ref sig .tc := ⟨.hbm, 11, rfl⟩
abbrev main_call0_c_0 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_c_3 : Ref sig .tc := ⟨.hbm, 22, rfl⟩
abbrev main_call0_v10 : Ref sig .tc := ⟨.hbm, 23, rfl⟩
abbrev main_call0_c_4 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S12x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1048576x12_S12x1048576_1_0 : S1048576x12.Transposes [1, 0] S12x1048576
  bcast_S_S16x32 : S_.BroadcastsInDim S16x32 (![] : Fin 0 → Fin S16x32.rank)
  bcast_S_S1 : S_.BroadcastsInDim S1 (![] : Fin 0 → Fin S1.rank)
  concatenates_S1_S1_S2_d0 : Shape.Concatenates [S1, S1] S2 0
  transposes_S1x1048576_S1048576x1_1_0 : S1x1048576.Transposes [1, 0] S1048576x1
  inb_S32x131072_S32x131072_0_0 : ∀ a, (![0, 0] : Fin 2 → Nat) a + S32x131072.size a ≤ S32x131072.size a
  h_S32x131072 : 0 < S32x131072.numel
  shapeCasts_S32x131072_S32x131072 : S32x131072.ShapeCasts S32x131072
  packedbf16_S32x131072_S32x131072_0_0 : (Rect.unit (s := S32x131072) ![0, 0] S32x131072.size inb_S32x131072_S32x131072_0_0).PackedRows (EltTy.packing .bf16)
  inb_S12x131072_S12x131072_0_0 : ∀ a, (![0, 0] : Fin 2 → Nat) a + S12x131072.size a ≤ S12x131072.size a
  h_S12x131072 : 0 < S12x131072.numel
  shapeCasts_S12x131072_S12x131072 : S12x131072.ShapeCasts S12x131072
  bitsLt_bf16_f32 : FTy.bits .bf16 < FTy.bits .f32
  inb_S32x131072_S12x131072_0_0 : ∀ a, (![0, 0] : Fin 2 → Nat) a + S12x131072.size a ≤ S32x131072.size a
  packedbf16_S32x131072_S12x131072_0_0 : (Rect.unit (s := S32x131072) ![0, 0] S12x131072.size inb_S32x131072_S12x131072_0_0).PackedRows (EltTy.packing .bf16)
  inb_S16x32_S16x32_0_0 : ∀ a, (![0, 0] : Fin 2 → Nat) a + S16x32.size a ≤ S16x32.size a
  h_S16x32 : 0 < S16x32.numel
  shapeCasts_S16x32_S16x32 : S16x32.ShapeCasts S16x32
  slices_S16x131072_o15_0_S1x131072 : S16x131072.Slices ![15, 0] S1x131072
  inb_S1x1_S1x1_0_0 : ∀ a, (![0, 0] : Fin 2 → Nat) a + S1x1.size a ≤ S1x1.size a
  h_S1x1 : 0 < S1x1.numel
  broadcasts_S1x1_S1x131072 : S1x1.Broadcasts S1x131072
  inb_S1x131072_S1x131072_0_0 : ∀ a, (![0, 0] : Fin 2 → Nat) a + S1x131072.size a ≤ S1x131072.size a
  h_S1x131072 : 0 < S1x131072.numel
  slices_S16x131072_o0_0_S7x131072 : S16x131072.Slices ![0, 0] S7x131072
  inb_S7x1_S7x1_0_0 : ∀ a, (![0, 0] : Fin 2 → Nat) a + S7x1.size a ≤ S7x1.size a
  h_S7x1 : 0 < S7x1.numel
  broadcasts_S7x1_S7x131072 : S7x1.Broadcasts S7x131072
  inb_S32x131072_S7x131072_16_0 : ∀ a, (![16, 0] : Fin 2 → Nat) a + S7x131072.size a ≤ S32x131072.size a
  h_S7x131072 : 0 < S7x131072.numel
  shapeCasts_S7x131072_S7x131072 : S7x131072.ShapeCasts S7x131072
  inb_S32x131072_S8x131072_16_0 : ∀ a, (![16, 0] : Fin 2 → Nat) a + S8x131072.size a ≤ S32x131072.size a
  h_S8x131072 : 0 < S8x131072.numel
  slices_S8x131072_S7x131072_0_0 : S8x131072.Slices ![0, 0] S7x131072
  packedbf16_S32x131072_S8x131072_16_0 : (Rect.unit (s := S32x131072) ![16, 0] S8x131072.size inb_S32x131072_S8x131072_16_0).PackedRows (EltTy.packing .bf16)
  slices_S16x131072_o8_0_S7x131072 : S16x131072.Slices ![8, 0] S7x131072
  inb_S32x131072_S7x131072_24_0 : ∀ a, (![24, 0] : Fin 2 → Nat) a + S7x131072.size a ≤ S32x131072.size a
  inb_S32x131072_S8x131072_24_0 : ∀ a, (![24, 0] : Fin 2 → Nat) a + S8x131072.size a ≤ S32x131072.size a
  packedbf16_S32x131072_S8x131072_24_0 : (Rect.unit (s := S32x131072) ![24, 0] S8x131072.size inb_S32x131072_S8x131072_24_0).PackedRows (EltTy.packing .bf16)
  scatter_S16x32_S2_S7x12_01_n_01_0_wf : ScatterDims.WF S16x32 S2 S7x12 [0, 1] [] [0, 1] 0
  scatter_S16x32_S2_S7x7_01_n_01_0_wf : ScatterDims.WF S16x32 S2 S7x7 [0, 1] [] [0, 1] 0
  scatter_S16x32_S2_S1x7_01_n_01_0_wf : ScatterDims.WF S16x32 S2 S1x7 [0, 1] [] [0, 1] 0
  dot_S16x32_S32x131072_S16x131072_1_0_0_1_n_n_wf : DotDims.WF S16x32 S32x131072 S16x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x131072.size a ≤ S12x1048576.size a
  hwx0_0 : ∀ i : grid0.Coords, EltTy.bits .f32 = 32 ∨ (Rect.block (s := S12x1048576) S12x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x1.size a ≤ S7x1.size a
  hwx0_2 : ∀ i : grid0.Coords, EltTy.bits .f32 = 32 ∨ (Rect.block (s := S7x1) S7x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x1.size a ≤ S7x1.size a
  hwx0_3 : ∀ i : grid0.Coords, EltTy.bits .f32 = 32 ∨ (Rect.block (s := S7x1) S7x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x131072.size a ≤ S1x1048576.size a
  hwx0_5 : ∀ i : grid0.Coords, EltTy.bits .f32 = 32 ∨ (Rect.block (s := S1x1048576) S1x131072.size (cc0_transform_5 i) (hinb0_5 i)).WholeWords (EltTy.packing .f32)

variable [Facts₀]

def scatter_S16x32_S2_S7x12_01_n_01_0 : ScatterDims S16x32 S2 S7x12 where
  updateWindowDims := [0, 1]
  insertedWindowDims := []
  scatterDimsToOperandDims := [0, 1]
  indexVectorDim := 0
  wf := scatter_S16x32_S2_S7x12_01_n_01_0_wf
def scatter_S16x32_S2_S7x7_01_n_01_0 : ScatterDims S16x32 S2 S7x7 where
  updateWindowDims := [0, 1]
  insertedWindowDims := []
  scatterDimsToOperandDims := [0, 1]
  indexVectorDim := 0
  wf := scatter_S16x32_S2_S7x7_01_n_01_0_wf
def scatter_S16x32_S2_S1x7_01_n_01_0 : ScatterDims S16x32 S2 S1x7 where
  updateWindowDims := [0, 1]
  insertedWindowDims := []
  scatterDimsToOperandDims := [0, 1]
  indexVectorDim := 0
  wf := scatter_S16x32_S2_S1x7_01_n_01_0_wf
def dot_S16x32_S32x131072_S16x131072_1_0_0_1_n_n : DotDims S16x32 S32x131072 S16x131072 where
  lhsContracting := [1]
  rhsContracting := [0]
  lhsNonContracting := [0]
  rhsNonContracting := [1]
  lhsBatch := []
  rhsBatch := []
  wf := dot_S16x32_S32x131072_S16x131072_1_0_0_1_n_n_wf

abbrev win0_0 : Pipeline.Window sig grid0 :=
  Pipeline.Window.ofSpec (Memref.whole main_call0_v0) S12x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S7x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v14) S1x131072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x12 : Shape := ⟨2, ![1048576, 12]⟩
abbrev S7x12 : Shape := ⟨2, ![7, 12]⟩
abbrev S7x1 : Shape := ⟨2, ![7, 1]⟩
abbrev S7x7 : Shape := ⟨2, ![7, 7]⟩
abbrev S1x7 : Shape := ⟨2, ![1, 7]⟩
abbrev S1x1 : Shape := ⟨2, ![1, 1]⟩
abbrev S12x1048576 : Shape := ⟨2, ![12, 1048576]⟩
abbrev S1x1048576 : Shape := ⟨2, ![1, 1048576]⟩
abbrev S1048576x1 : Shape := ⟨2, ![1048576, 1]⟩
abbrev S12x16384 : Shape := ⟨2, ![12, 16384]⟩
abbrev S1x16384 : Shape := ⟨2, ![1, 16384]⟩
abbrev S7x16384 : Shape := ⟨2, ![7, 16384]⟩

abbrev nBuf : Space → Nat
  | .hbm => 10
  | .vmem => 10
  | .smem => 0
  | _ => 0

abbrev bufTy : (tb : Table) → Fin (tcTables nBuf tb) → BufTy
  | .hbm, ⟨0, _⟩ => ⟨S1048576x12, .f32⟩
  | .hbm, ⟨1, _⟩ => ⟨S7x12, .f32⟩
  | .hbm, ⟨2, _⟩ => ⟨S7x1, .f32⟩
  | .hbm, ⟨3, _⟩ => ⟨S7x7, .f32⟩
  | .hbm, ⟨4, _⟩ => ⟨S7x1, .f32⟩
  | .hbm, ⟨5, _⟩ => ⟨S1x7, .f32⟩
  | .hbm, ⟨6, _⟩ => ⟨S1x1, .f32⟩
  | .hbm, ⟨7, _⟩ => ⟨S12x1048576, .f32⟩
  | .hbm, ⟨8, _⟩ => ⟨S1x1048576, .f32⟩
  | .hbm, ⟨9, _⟩ => ⟨S1048576x1, .f32⟩
  | .local _ .vmem, ⟨0, _⟩ => ⟨S12x16384, .f32⟩
  | .local _ .vmem, ⟨1, _⟩ => ⟨S12x16384, .f32⟩
  | .local _ .vmem, ⟨2, _⟩ => ⟨S7x12, .f32⟩
  | .local _ .vmem, ⟨3, _⟩ => ⟨S7x1, .f32⟩
  | .local _ .vmem, ⟨4, _⟩ => ⟨S7x7, .f32⟩
  | .local _ .vmem, ⟨5, _⟩ => ⟨S7x1, .f32⟩
  | .local _ .vmem, ⟨6, _⟩ => ⟨S1x7, .f32⟩
  | .local _ .vmem, ⟨7, _⟩ => ⟨S1x1, .f32⟩
  | .local _ .vmem, ⟨8, _⟩ => ⟨S1x16384, .f32⟩
  | .local _ .vmem, ⟨9, _⟩ => ⟨S1x16384, .f32⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1048576x12_S12x1048576_1_0 : S1048576x12.Transposes [1, 0] S12x1048576
  transposes_S1x1048576_S1048576x1_1_0 : S1x1048576.Transposes [1, 0] S1048576x1
  inb_S12x16384_S12x16384_0_0 : ∀ a, (![0, 0] : Fin 2 → Nat) a + S12x16384.size a ≤ S12x16384.size a
  h_S12x16384 : 0 < S12x16384.numel
  shapeCasts_S12x16384_S12x16384 : S12x16384.ShapeCasts S12x16384
  inb_S7x12_S7x12_0_0 : ∀ a, (![0, 0] : Fin 2 → Nat) a + S7x12.size a ≤ S7x12.size a
  h_S7x12 : 0 < S7x12.numel
  inb_S7x1_S7x1_0_0 : ∀ a, (![0, 0] : Fin 2 → Nat) a + S7x1.size a ≤ S7x1.size a
  h_S7x1 : 0 < S7x1.numel
  broadcasts_S7x1_S7x16384 : S7x1.Broadcasts S7x16384
  inb_S7x7_S7x7_0_0 : ∀ a, (![0, 0] : Fin 2 → Nat) a + S7x7.size a ≤ S7x7.size a
  h_S7x7 : 0 < S7x7.numel
  inb_S1x7_S1x7_0_0 : ∀ a, (![0, 0] : Fin 2 → Nat) a + S1x7.size a ≤ S1x7.size a
  h_S1x7 : 0 < S1x7.numel
  inb_S1x1_S1x1_0_0 : ∀ a, (![0, 0] : Fin 2 → Nat) a + S1x1.size a ≤ S1x1.size a
  h_S1x1 : 0 < S1x1.numel
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  dot_S7x12_S12x16384_S7x16384_1_0_0_1_n_n_wf : DotDims.WF S7x12 S12x16384 S7x16384 [1] [0] [0] [1] [] []
  dot_S7x7_S7x16384_S7x16384_1_0_0_1_n_n_wf : DotDims.WF S7x7 S7x16384 S7x16384 [1] [0] [0] [1] [] []
  dot_S1x7_S7x16384_S1x16384_1_0_0_1_n_n_wf : DotDims.WF S1x7 S7x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x16384.size a ≤ S12x1048576.size a
  hwx0_0 : ∀ i : grid0.Coords, EltTy.bits .f32 = 32 ∨ (Rect.block (s := S12x1048576) S12x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x12.size a ≤ S7x12.size a
  hwx0_1 : ∀ i : grid0.Coords, EltTy.bits .f32 = 32 ∨ (Rect.block (s := S7x12) S7x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x1.size a ≤ S7x1.size a
  hwx0_2 : ∀ i : grid0.Coords, EltTy.bits .f32 = 32 ∨ (Rect.block (s := S7x1) S7x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x7.size a ≤ S7x7.size a
  hwx0_3 : ∀ i : grid0.Coords, EltTy.bits .f32 = 32 ∨ (Rect.block (s := S7x7) S7x7.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x1.size a ≤ S7x1.size a
  hwx0_4 : ∀ i : grid0.Coords, EltTy.bits .f32 = 32 ∨ (Rect.block (s := S7x1) S7x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16384.size a ≤ S1x1048576.size a
  hwx0_7 : ∀ i : grid0.Coords, EltTy.bits .f32 = 32 ∨ (Rect.block (s := S1x1048576) S1x16384.size (cc0_transform_7 i) (hinb0_7 i)).WholeWords (EltTy.packing .f32)

variable [Facts₀]

def dot_S7x12_S12x16384_S7x16384_1_0_0_1_n_n : DotDims S7x12 S12x16384 S7x16384 where
  lhsContracting := [1]
  rhsContracting := [0]
  lhsNonContracting := [0]
  rhsNonContracting := [1]
  lhsBatch := []
  rhsBatch := []
  wf := dot_S7x12_S12x16384_S7x16384_1_0_0_1_n_n_wf
def dot_S7x7_S7x16384_S7x16384_1_0_0_1_n_n : DotDims S7x7 S7x16384 S7x16384 where
  lhsContracting := [1]
  rhsContracting := [0]
  lhsNonContracting := [0]
  rhsNonContracting := [1]
  lhsBatch := []
  rhsBatch := []
  wf := dot_S7x7_S7x16384_S7x16384_1_0_0_1_n_n_wf
def dot_S1x7_S7x16384_S1x16384_1_0_0_1_n_n : DotDims S1x7 S7x16384 S1x16384 where
  lhsContracting := [1]
  rhsContracting := [0]
  lhsNonContracting := [0]
  rhsNonContracting := [1]
  lhsBatch := []
  rhsBatch := []
  wf := dot_S1x7_S7x16384_S1x16384_1_0_0_1_n_n_wf

abbrev win0_0 : Pipeline.Window sig grid0 :=
  Pipeline.Window.ofSpec (Memref.whole main_call0_v0) S12x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S7x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.KStep.lean ====
/-
  One grid point of the kernel as a pure function of what its buffers hold.

  The kernel keeps a 32-row activation scratch between grid points. At a point it (1) overwrites rows 0..11 with the
  point's block of twelve feature rows, (2) multiplies the 16-by-32 stacked weight matrix with the whole scratch,
  (3) writes product row 15 plus the output bias to the output block, (4) overwrites scratch rows 16..22 with the
  rectified product rows 0..6 plus the first bias, row 23 kept, and (5) overwrites scratch rows 24..30 with the rectified
  product rows 8..14 plus the second bias, row 31 kept. Steps (4) and (5) store an eight-row band whose last row is the
  band's old last row. The product is taken BEFORE steps (4) and (5), so it sees the hidden rows the previous point left.

  `putRows` is "rows [o, o + W) replaced, the other rows kept"; the three scratch states after steps (1), (4), (5) and the
  output row are then named terms over the generated payloads. `read_putRows` reads a buffer after a newest store of whole
  rows as `putRows` of what the earlier stores left.
-/
import proofs.«135626_g2000603897208126_pallasbulk_572_7_alg».proof.Proof.Gen.Kernel.Skeleton
import Idealize.ShloMosaic.Lib.Pipeline.Value
import Idealize.ShloMosaic.Lib.WritesUnit

noncomputable section

namespace Cert.Proof.K

open Cert.Kernel Cert.Kernel.Gen
open Idealize.ShloMosaic

variable {F : FTy → Type} [FloatOps F]

/-- Rows `[o, o + W)` of a 32-row array replaced by the band `w`, every other row kept. -/
def putRows {size : Fin 2 → ℕ} (o W : ℕ) (inb : ∀ a : Fin 2, (![o, 0] : Fin 2 → ℕ) a + size a ≤ (![32, 131072] : Fin 2 → ℕ) a)
    (hW : size (0 : Fin 2) = W) (hD : size (1 : Fin 2) = (![32, 131072] : Fin 2 → ℕ) (1 : Fin 2))
    (S : Vec F S32x131072 .bf16) (w : (Rect.unit (s := S32x131072) ![o, 0] size inb).shape.Idx → Elt F .bf16) :
    Vec F S32x131072 .bf16 :=
  fun y => if h : o ≤ (y (0 : Fin 2)).val ∧ (y (0 : Fin 2)).val < o + W then
      w (Rect.unitLocal (s := S32x131072) (off := ![o, 0]) (size := size) y (Rect.unit_rows_mem y hW hD h))
    else S y

/-- A buffer read after a newest store of whole rows: those rows hold the stored band, the rest what the earlier stores left. -/
theorem read_putRows {sig' : RefSig} {κ : Kind} {sp : Space} (v : View sig' κ sp S32x131072 .bf16) (f : v.ty.Contents (Elt F))
    {size : Fin 2 → ℕ} (o W : ℕ) (inb : ∀ a : Fin 2, (![o, 0] : Fin 2 → ℕ) a + size a ≤ (![32, 131072] : Fin 2 → ℕ) a)
    (hW : size (0 : Fin 2) = W) (hD : size (1 : Fin 2) = (![32, 131072] : Fin 2 → ℕ) (1 : Fin 2))
    (w : (Rect.unit (s := S32x131072) ![o, 0] size inb).shape.Idx → Elt F .bf16) (L : List (View.Piece (Elt F) S32x131072 .bf16)) :
    v.read (Elt F) (v.writes (Elt F) f ((⟨Rect.unit (s := S32x131072) ![o, 0] size inb, w⟩ : View.Piece (Elt F) S32x131072 .bf16) :: L))
      = putRows o W inb hW hD (v.read (Elt F) (v.writes (Elt F) f L)) w :=
  funext fun y => View.read_writes_cons_rows v f inb w L y rfl hW hD

/-- The whole scratch, the feature rows, and the two eight-row hidden bands, as rectangles of the scratch. -/
abbrev rAll : Rect S32x131072 := Rect.unit (s := S32x131072) ![0, 0] ![32, 131072] inb_S32x131072_S32x131072_0_0
abbrev rFeat : Rect S32x131072 := Rect.unit (s := S32x131072) ![0, 0] ![12, 131072] inb_S32x131072_S12x131072_0_0
abbrev rHid0 : Rect S32x131072 := Rect.unit (s := S32x131072) ![16, 0] ![8, 131072] inb_S32x131072_S8x131072_16_0
abbrev rHid1 : Rect S32x131072 := Rect.unit (s := S32x131072) ![24, 0] ![8, 131072] inb_S32x131072_S8x131072_24_0

/-- The scratch after step (1): rows 0..11 hold the point's feature block `x` (narrowed), the rest of `S` is kept. -/
def scrFeat (S : Vec F S32x131072 .bf16) (x : Vec F S12x131072 .f32) : Vec F S32x131072 .bf16 :=
  putRows (size := ![12, 131072]) 0 12 inb_S32x131072_S12x131072_0_0 rfl rfl S (k0_pay3 x)

/-- The output block: product row 15 plus the output bias. -/
def outRow (S : Vec F S32x131072 .bf16) (x : Vec F S12x131072 .f32) (w : Vec F S16x32 .f32) (b2 : Vec F S1x1 .f32) :
    FVec F S1x131072 .f32 :=
  k0_pay5 w (View.ld (scrFeat S x) rAll) b2

/-- The scratch after step (4): rows 16..22 hold the rectified product rows 0..6 plus the first bias; row 23 keeps
    what `S` held there (no earlier step of the point touches it). -/
def scrHid0 (S : Vec F S32x131072 .bf16) (x : Vec F S12x131072 .f32) (w : Vec F S16x32 .f32) (b0 : Vec F S7x1 .f32) :
    Vec F S32x131072 .bf16 :=
  putRows (size := ![8, 131072]) 16 8 inb_S32x131072_S8x131072_16_0 rfl rfl (scrFeat S x)
    (updateSlice (View.ld S rHid0) (k0_pay6 w (View.ld (scrFeat S x) rAll) b0) ![0, 0] slices_S8x131072_S7x131072_0_0)

/-- The scratch after step (5), which is what the point leaves: rows 24..30 hold the rectified product rows 8..14 plus the
    second bias; row 31 keeps what `S` held there. -/
def scrNext (S : Vec F S32x131072 .bf16) (x : Vec F S12x131072 .f32) (w : Vec F S16x32 .f32) (b0 b1 : Vec F S7x1 .f32) :
    Vec F S32x131072 .bf16 :=
  putRows (size := ![8, 131072]) 24 8 inb_S32x131072_S8x131072_24_0 rfl rfl (scrHid0 S x w b0)
    (updateSlice (View.ld S rHid1) (k0_pay1 (k0_pay7 w (View.ld (scrFeat S x) rAll)) b1) ![0, 0] slices_S8x131072_S7x131072_0_0)

end Cert.Proof.K

end
-- ==== Proof.KBody.lean ====
/-
  The kernel body's triple at a grid point, in the two cases of its one conditional.

  At the first grid point the body first fills the whole scratch with zeros; at every other point it does not. After
  that both cases run the same steps, so what the point leaves is `scrNext` and `outRow` of the scratch contents the
  steps start from: the zero array at the first point, what the previous point left elsewhere. The input buffers are
  only read. Each closing equation reads the buffer after the listed stores, newest first, as the named scratch states.
-/
import proofs.«135626_g2000603897208126_pallasbulk_572_7_alg».proof.Proof.KStep
import proofs.«135626_g2000603897208126_pallasbulk_572_7_alg».proof.Proof.Gen.Kernel.Frame

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The body's conditional: the grid coordinate, as a 32-bit word, equals zero. -/
abbrev isFirst (i : grid0.Coords) : Prop :=
  Scalar.cmpi .ne (Scalar.extui (Scalar.cmpi .eq (BitVec.ofNat 32 (i 0).val) 0#32) : BitVec 32) 0#32 = 1#1

/-- Offsets `(0, 0)` are the zero offsets. -/
theorem off00 : (![0, 0] : Fin 2 → ℕ) = fun _ => 0 := funext fun a => by fin_cases a <;> rfl

/-- The three whole-row stores of a point, read newest first. -/
theorem read_feat {sig' : RefSig} {κ : Kind} {sp : Space} (v : View sig' κ sp S32x131072 .bf16) (f : v.ty.Contents (Elt F))
    (w : rFeat.shape.Idx → Elt F .bf16) (L : List (View.Piece (Elt F) S32x131072 .bf16)) :
    v.read (Elt F) (v.writes (Elt F) f ((⟨rFeat, w⟩ : View.Piece (Elt F) S32x131072 .bf16) :: L))
      = putRows (size := ![12, 131072]) 0 12 inb_S32x131072_S12x131072_0_0 rfl rfl (v.read (Elt F) (v.writes (Elt F) f L)) w :=
  read_putRows v f (size := ![12, 131072]) 0 12 inb_S32x131072_S12x131072_0_0 rfl rfl w L
theorem read_hid0 {sig' : RefSig} {κ : Kind} {sp : Space} (v : View sig' κ sp S32x131072 .bf16) (f : v.ty.Contents (Elt F))
    (w : rHid0.shape.Idx → Elt F .bf16) (L : List (View.Piece (Elt F) S32x131072 .bf16)) :
    v.read (Elt F) (v.writes (Elt F) f ((⟨rHid0, w⟩ : View.Piece (Elt F) S32x131072 .bf16) :: L))
      = putRows (size := ![8, 131072]) 16 8 inb_S32x131072_S8x131072_16_0 rfl rfl (v.read (Elt F) (v.writes (Elt F) f L)) w :=
  read_putRows v f (size := ![8, 131072]) 16 8 inb_S32x131072_S8x131072_16_0 rfl rfl w L
theorem read_hid1 {sig' : RefSig} {κ : Kind} {sp : Space} (v : View sig' κ sp S32x131072 .bf16) (f : v.ty.Contents (Elt F))
    (w : rHid1.shape.Idx → Elt F .bf16) (L : List (View.Piece (Elt F) S32x131072 .bf16)) :
    v.read (Elt F) (v.writes (Elt F) f ((⟨rHid1, w⟩ : View.Piece (Elt F) S32x131072 .bf16) :: L))
      = putRows (size := ![8, 131072]) 24 8 inb_S32x131072_S8x131072_24_0 rfl rfl (v.read (Elt F) (v.writes (Elt F) f L)) w :=
  read_putRows v f (size := ![8, 131072]) 24 8 inb_S32x131072_S8x131072_24_0 rfl rfl w L

/-- A band of rows disjoint from the replaced rows reads through `putRows` to the array underneath. -/
theorem ld_putRows_of_disjoint {size : Fin 2 → ℕ} (o W : ℕ) (inb : ∀ a : Fin 2, (![o, 0] : Fin 2 → ℕ) a + size a ≤ (![32, 131072] : Fin 2 → ℕ) a)
    (hW : size (0 : Fin 2) = W) (hD : size (1 : Fin 2) = (![32, 131072] : Fin 2 → ℕ) (1 : Fin 2))
    (S : Vec F S32x131072 .bf16) (w : (Rect.unit (s := S32x131072) ![o, 0] size inb).shape.Idx → Elt F .bf16)
    {off' size' : Fin 2 → ℕ} (inb' : ∀ a : Fin 2, off' a + size' a ≤ S32x131072.size a)
    (h : o + W ≤ off' (0 : Fin 2) ∨ off' (0 : Fin 2) + size' (0 : Fin 2) ≤ o) :
    View.ld (putRows o W inb hW hD S w) (Rect.unit (s := S32x131072) off' size' inb')
      = View.ld S (Rect.unit (s := S32x131072) off' size' inb') := by
  funext x
  show putRows o W inb hW hD S w ((Rect.unit (s := S32x131072) off' size' inb').idx x) = S ((Rect.unit (s := S32x131072) off' size' inb').idx x)
  unfold putRows
  rw [dif_neg]
  intro hc
  have e : (((Rect.unit (s := S32x131072) off' size' inb').idx x) (0 : Fin 2)).val = off' (0 : Fin 2) + 1 * (x (0 : Fin 2)).val := rfl
  have hx : (x (0 : Fin 2)).val < size' (0 : Fin 2) := (x (0 : Fin 2)).isLt
  omega

theorem ld_feat_hid0 (h1 h2) (S : Vec F S32x131072 .bf16) (w) :
    View.ld (putRows (size := ![12, 131072]) 0 12 inb_S32x131072_S12x131072_0_0 h1 h2 S w) rHid0 = View.ld S rHid0 :=
  ld_putRows_of_disjoint 0 12 _ h1 h2 S w _ (Or.inl (by decide))
theorem ld_feat_hid1 (h1 h2) (S : Vec F S32x131072 .bf16) (w) :
    View.ld (putRows (size := ![12, 131072]) 0 12 inb_S32x131072_S12x131072_0_0 h1 h2 S w) rHid1 = View.ld S rHid1 :=
  ld_putRows_of_disjoint 0 12 _ h1 h2 S w _ (Or.inl (by decide))
theorem ld_hid0_hid1 (h1 h2) (S : Vec F S32x131072 .bf16) (w) :
    View.ld (putRows (size := ![8, 131072]) 16 8 inb_S32x131072_S8x131072_16_0 h1 h2 S w) rHid1 = View.ld S rHid1 :=
  ld_putRows_of_disjoint 16 8 _ h1 h2 S w _ (Or.inl (by decide))

/-- One store through the whole scratch covers it. -/
theorem cover_scr (w : Vec F S32x131072 .bf16) (y : S32x131072.Idx) :
    ∃ pc ∈ ([⟨rAll, w⟩] : List (View.Piece (Elt F) S32x131072 .bf16)), y ∈ pc.1.set :=
  View.cover_of_tiled [⟨rAll, w⟩] S32x131072.size (by rfl) y

/-- After one store through the whole scratch the scratch reads as the stored array, whatever it held. -/
theorem read_all {sig' : RefSig} {κ : Kind} {sp : Space} (v : View sig' κ sp S32x131072 .bf16) (g : v.ty.Contents (Elt F))
    (w : Vec F S32x131072 .bf16) :
    v.read (Elt F) (v.writes (Elt F) g [(⟨rAll, w⟩ : View.Piece (Elt F) S32x131072 .bf16)]) = w := by
  rw [View.read_writes_eq_canon _ _ _ (cover_scr w), View.canon_unit_zero off00]

/-- One store through the whole output block covers it. -/
theorem cover_out (w : Vec F S1x131072 .f32) (y : S1x131072.Idx) :
    ∃ pc ∈ ([⟨Rect.unit (s := S1x131072) ![0, 0] S1x131072.size inb_S1x131072_S1x131072_0_0, w⟩] : List (View.Piece (Elt F) S1x131072 .f32)), y ∈ pc.1.set :=
  View.cover_of_tiled [⟨Rect.unit (s := S1x131072) ![0, 0] S1x131072.size inb_S1x131072_S1x131072_0_0, w⟩] S1x131072.size (by rfl) y

/-- A point that is not the first: from the scratch at `S` to the scratch at `scrNext S …`, the output block at `outRow S …`. -/
theorem sound_rest (c : Dev nD) (i : grid0.Coords) (hc : ¬ isFirst i)
    (arg1 : Memref sig .tc .vmem S12x131072 .f32) (harg1 : arg1.IsWhole) (arg2 : Memref sig .tc .vmem S16x32 .f32) (harg2 : arg2.IsWhole) (arg3 : Memref sig .tc .vmem S7x1 .f32) (harg3 : arg3.IsWhole) (arg4 : Memref sig .tc .vmem S7x1 .f32) (harg4 : arg4.IsWhole) (arg5 : Memref sig .tc .vmem S1x1 .f32) (harg5 : arg5.IsWhole) (arg6 : Memref sig .tc .vmem S1x131072 .f32) (harg6 : arg6.IsWhole) (arg7 : Memref sig .tc .vmem S32x131072 .bf16) (harg7 : arg7.IsWhole)
    (x : Vec F S12x131072 .f32) (w : Vec F S16x32 .f32) (b0 b1 : Vec F S7x1 .f32) (b2 : Vec F S1x1 .f32) (S : Vec F S32x131072 .bf16)
    (K : PUnit → sProp 𝕄) :
    iprop(owns (c : Thread nD τ) arg1 fullShare x ∗ owns (c : Thread nD τ) arg2 fullShare w ∗ owns (c : Thread nD τ) arg3 fullShare b0
        ∗ owns (c : Thread nD τ) arg4 fullShare b1 ∗ owns (c : Thread nD τ) arg5 fullShare b2 ∗ (∃ d, owns (c : Thread nD τ) arg6 fullShare d)
        ∗ owns (c : Thread nD τ) arg7 fullShare S
        ∗ (iprop(owns (c : Thread nD τ) arg1 fullShare x ∗ owns (c : Thread nD τ) arg2 fullShare w ∗ owns (c : Thread nD τ) arg3 fullShare b0
            ∗ owns (c : Thread nD τ) arg4 fullShare b1 ∗ owns (c : Thread nD τ) arg5 fullShare b2
            ∗ owns (c : Thread nD τ) arg6 fullShare (outRow S x w b2)
            ∗ owns (c : Thread nD τ) arg7 fullShare (scrNext S x w b0 b1)) -∗ K ⟨⟩))
      ⊢ wp frame (wpE (defs₀ (F := F)) Variants.none c none) Set.univ (cc0__mlp_body i arg1 harg1 arg2 harg2 arg3 harg3 arg4 harg4 arg5 harg5 arg6 harg6 arg7 harg7) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_out _), View.canon_unit_zero off00]
    sl_unfold_words
    unfold outRow scrFeat
    simp only [View.readAt_eq_ld, read_feat, View.writes_nil, View.ld_unit_zero (S := S16x32) off00, View.ld_unit_zero (S := S12x131072) off00, View.ld_unit_zero (S := S1x1) off00, View.ld_unit_zero (S := S7x1) off00]
  · iexists _; isplitr
    swap; · iexact H7
    ipureintro
    sl_unfold_words
    unfold scrNext scrHid0 scrFeat
    simp only [View.readAt_eq_ld, read_hid1, read_hid0, read_feat, View.writes_nil, View.ld_unit_zero (S := S16x32) off00, View.ld_unit_zero (S := S12x131072) off00, View.ld_unit_zero (S := S1x1) off00, View.ld_unit_zero (S := S7x1) off00]

/-- The first point: whatever the scratch held, it is zeroed first; the point leaves `scrNext` and `outRow` of the zero array. -/
theorem sound_first (c : Dev nD) (i : grid0.Coords) (hc : isFirst i)
    (arg1 : Memref sig .tc .vmem S12x131072 .f32) (harg1 : arg1.IsWhole) (arg2 : Memref sig .tc .vmem S16x32 .f32) (harg2 : arg2.IsWhole) (arg3 : Memref sig .tc .vmem S7x1 .f32) (harg3 : arg3.IsWhole) (arg4 : Memref sig .tc .vmem S7x1 .f32) (harg4 : arg4.IsWhole) (arg5 : Memref sig .tc .vmem S1x1 .f32) (harg5 : arg5.IsWhole) (arg6 : Memref sig .tc .vmem S1x131072 .f32) (harg6 : arg6.IsWhole) (arg7 : Memref sig .tc .vmem S32x131072 .bf16) (harg7 : arg7.IsWhole)
    (x : Vec F S12x131072 .f32) (w : Vec F S16x32 .f32) (b0 b1 : Vec F S7x1 .f32) (b2 : Vec F S1x1 .f32)
    (K : PUnit → sProp 𝕄) :
    iprop(owns (c : Thread nD τ) arg1 fullShare x ∗ owns (c : Thread nD τ) arg2 fullShare w ∗ owns (c : Thread nD τ) arg3 fullShare b0
        ∗ owns (c : Thread nD τ) arg4 fullShare b1 ∗ owns (c : Thread nD τ) arg5 fullShare b2 ∗ (∃ d, owns (c : Thread nD τ) arg6 fullShare d)
        ∗ (∃ g, arg7.view.loc (c : Thread nD τ) ↦[arg7.view.set]{fullShare} g)
        ∗ (iprop(owns (c : Thread nD τ) arg1 fullShare x ∗ owns (c : Thread nD τ) arg2 fullShare w ∗ owns (c : Thread nD τ) arg3 fullShare b0
            ∗ owns (c : Thread nD τ) arg4 fullShare b1 ∗ owns (c : Thread nD τ) arg5 fullShare b2
            ∗ owns (c : Thread nD τ) arg6 fullShare (outRow (k0_pay2 (F := F)) x w b2)
            ∗ owns (c : Thread nD τ) arg7 fullShare (scrNext (k0_pay2 (F := F)) x w b0 b1)) -∗ K ⟨⟩))
      ⊢ wp frame (wpE (defs₀ (F := F)) Variants.none c none) Set.univ (cc0__mlp_body i arg1 harg1 arg2 harg2 arg3 harg3 arg4 harg4 arg5 harg5 arg6 harg6 arg7 harg7) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, H7⟩, Hk⟩
  subst hf1 hf2 hf3 hf4 hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_out _), View.canon_unit_zero off00]
    sl_unfold_words
    unfold outRow scrFeat
    simp only [View.readCov, View.readAt_eq_ld, read_feat, read_all, View.ld_unit_zero (S := S16x32) off00, View.ld_unit_zero (S := S12x131072) off00, View.ld_unit_zero (S := S1x1) off00, View.ld_unit_zero (S := S7x1) off00]
  · iexists _; isplitr
    swap; · iexact H7
    ipureintro
    sl_unfold_words
    unfold scrNext scrHid0 scrFeat
    simp only [View.readCov, View.readAt_eq_ld, read_hid1, read_hid0, read_feat, read_all, View.ld_unit_zero (S := S16x32) off00, View.ld_unit_zero (S := S12x131072) off00, View.ld_unit_zero (S := S1x1) off00, View.ld_unit_zero (S := S7x1) off00]
    erw [ld_feat_hid0, ld_hid0_hid1, ld_feat_hid1]

end Cert.Proof.K

end
-- ==== Proof.KData.lean ====
/-
  The kernel's pipeline: what its buffers hold point by point, the body obligation, the run and the frame.

  The scratch is carried from grid point to grid point. `scrB n` is what it holds before position `n`: the zero array
  the first point writes, then `scrNext` of the previous contents and the previous point's blocks. The output block
  the body leaves at point `t` is `outRow` of `scrB t` and the point's blocks; every input block is left as found. The
  region invariant is the class's before the first point (the scratch at anything) and afterwards the scratch at
  `scrB` beside the generator register. The first point is the one where the body's conditional holds.
-/
import proofs.«135626_g2000603897208126_pallasbulk_572_7_alg».proof.Proof.KBody

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The input windows' blocks at a point, under their literal types: the feature block, the stacked weights, the three biases. -/
abbrev xblk (c : Dev nD) (t : Fin cfg0.N) : Vec F S12x131072 .f32 := iblk m c 0 t
abbrev wblk (c : Dev nD) (t : Fin cfg0.N) : Vec F S16x32 .f32 := iblk m c 1 t
abbrev b0blk (c : Dev nD) (t : Fin cfg0.N) : Vec F S7x1 .f32 := iblk m c 2 t
abbrev b1blk (c : Dev nD) (t : Fin cfg0.N) : Vec F S7x1 .f32 := iblk m c 3 t
abbrev b2blk (c : Dev nD) (t : Fin cfg0.N) : Vec F S1x1 .f32 := iblk m c 4 t

/-- The scratch before position `n`: zeros before the first point's steps, then one `scrNext` per point. -/
def scrB (c : Dev nD) : (n : ℕ) → n ≤ cfg0.N → Vec F S32x131072 .bf16
  | 0, _ => k0_pay2
  | n + 1, hn => scrNext (scrB c n (Nat.le_of_succ_le hn)) (xblk m c ⟨n, hn⟩) (wblk m c ⟨n, hn⟩) (b0blk m c ⟨n, hn⟩) (b1blk m c ⟨n, hn⟩)

theorem scrB_zero (c : Dev nD) (n : ℕ) (h : n ≤ cfg0.N) (hz : n = 0) : scrB m c n h = k0_pay2 := by subst hz; rfl

theorem scrB_succ (c : Dev nD) (t : Fin cfg0.N) :
    scrB m c (t.val + 1) t.isLt = scrNext (scrB m c t.val (Nat.le_of_lt t.isLt)) (xblk m c t) (wblk m c t) (b0blk m c t) (b1blk m c t) := rfl

/-- The output block the body leaves at point `t`. -/
def outAt (c : Dev nD) (t : Fin cfg0.N) : FVec F S1x131072 .f32 :=
  outRow (scrB m c t.val (Nat.le_of_lt t.isLt)) (xblk m c t) (wblk m c t) (b2blk m c t)

/-- The scratch buffer as the body is called with it. -/
abbrev scM : Memref sig .tc .vmem S32x131072 .bf16 := Memref.whole cc0_scratch0

/-- The region invariant before position `n`. -/
def PhiS (c : Dev nD) : (n : ℕ) → n ≤ cfg0.N → sProp 𝕄
  | 0, _ => ΦA spec0 c
  | n + 1, hn => iprop(owns (c : Thread nD τ) scM fullShare (scrB m c (n + 1) hn) ∗ (∃ r, prngReg c r))

theorem PhiS_zero (c : Dev nD) (n : ℕ) (h : n ≤ cfg0.N) (hz : n = 0) : PhiS m c n h = ΦA spec0 c := by subst hz; rfl
theorem PhiS_succ (c : Dev nD) (n : ℕ) (hn : n < cfg0.N) :
    PhiS m c (n + 1) hn = iprop(owns (c : Thread nD τ) scM fullShare (scrB m c (n + 1) hn) ∗ (∃ r, prngReg c r)) := rfl
theorem PhiS_pos (c : Dev nD) (n : ℕ) (h : n ≤ cfg0.N) (hz : n ≠ 0) :
    PhiS m c n h = iprop(owns (c : Thread nD τ) scM fullShare (scrB m c n h) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- The body's conditional holds exactly at the first grid point. -/
theorem hfirst : ∀ t : Fin cfg0.N, isFirst (grid0.coords t) ↔ t.val = 0 :=
  (by decide +kernel : ∀ t : Fin grid0.N, isFirst (grid0.coords t) ↔ t.val = 0)

/-- The scratch as the class invariant holds it and as the body's run names it: one points-to. -/
theorem scr_eq (c : Dev nD) (f : Buf (Elt F) ((c : Thread nD τ).loc cc0_scratch0)) :
    ((scM).view.loc (c : Thread nD τ) ↦[(scM).view.set]{fullShare} f : sProp 𝕄)
      = ((c : Thread nD τ).loc cc0_scratch0) ↦{fullShare} f := by
  simp only [Memref.view_whole, View.set_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- The body at any point: the inputs' buffers hold their blocks; at the first point the class invariant yields the
    scratch at anything and the body zeroes it, elsewhere the invariant yields it at `scrB`; either way the body leaves it
    at the next `scrB` and the output block at `outAt`. The core's `owes` and the generator register pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rewrite [show (dats m 0 c).owesAt () t.succ = (dats m 0 c).owesAt () t.castSucc from rfl,
    after0_0, after0_1, after0_2, after0_3, after0_4, after0_5,
    show (dats m 0 c).Φ t.succ = PhiS m c (t.val + 1) t.isLt from rfl, PhiS_succ, scrB_succ, PhiS_castSucc]
  unfold outAt
  by_cases hz : t.val = 0
  · rewrite [PhiS_zero m c _ _ hz, scrB_zero m c _ _ hz]
    unfold ΦA
    rewrite [scopedRest0_eq]
    iintro ⟨⟨⟨%g, HS⟩, HR⟩, Ho, ⟨%d0, H0⟩, ⟨%d1, H1⟩, ⟨%d2, H2⟩, ⟨%d3, H3⟩, ⟨%d4, H4⟩, ⟨%d5, H5⟩⟩
    iapply (sound_first c (grid0.coords t) ((hfirst t).mpr hz) _ _ _ _ _ _ _ _ _ _ _ _ scM (Memref.isWhole_whole _)
      (xblk m c t) (wblk m c t) (b0blk m c t) (b1blk m c t) (b2blk m c t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists g; rewrite [scr_eq]; iexact HS
    iintro ⟨H0, H1, H2, H3, H4, H5, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · rewrite [PhiS_pos m c _ _ hz]
    iintro ⟨⟨HS, HR⟩, Ho, ⟨%d0, H0⟩, ⟨%d1, H1⟩, ⟨%d2, H2⟩, ⟨%d3, H3⟩, ⟨%d4, H4⟩, ⟨%d5, H5⟩⟩
    iapply (sound_rest c (grid0.coords t) (fun h => hz ((hfirst t).mp h)) _ _ _ _ _ _ _ _ _ _ _ _ scM (Memref.isWhole_whole _)
      (xblk m c t) (wblk m c t) (b0blk m c t) (b1blk m c t) (b2blk m c t) (scrB m c t.val (Nat.le_of_lt t.isLt)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's named contents are forgotten. -/
theorem hout (c : Dev nD) : (dats m 0 c).Φ (Fin.last cfg0.N) ⊢ ΦA spec0 c := by
  rw [show (dats m 0 c).Φ (Fin.last cfg0.N) = PhiS m c cfg0.N (Nat.le_refl _) from rfl,
    PhiS_pos m c _ _ (by have : cfg0.N = 10 := N_0; omega)]
  unfold ΦA owns
  rw [scopedRest0_eq]
  iintro ⟨⟨%f, -, HS⟩, HR⟩
  isplitl [HS]
  · iexists f; rw [← scr_eq]; iexact HS
  iexact HR

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, and its seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Proof.K

end
-- ==== Proof.KIStep.lean ====
/-
  One grid point of the kernel as a pure function of what its buffers hold.

  The kernel keeps a 32-row activation scratch between grid points. At a point it (1) overwrites rows 0..11 with the
  point's block of twelve feature rows, (2) multiplies the 16-by-32 stacked weight matrix with the whole scratch,
  (3) writes product row 15 plus the output bias to the output block, (4) overwrites scratch rows 16..22 with the
  rectified product rows 0..6 plus the first bias, row 23 kept, and (5) overwrites scratch rows 24..30 with the rectified
  product rows 8..14 plus the second bias, row 31 kept. Steps (4) and (5) store an eight-row band whose last row is the
  band's old last row. The product is taken BEFORE steps (4) and (5), so it sees the hidden rows the previous point left.

  `putRows` is "rows [o, o + W) replaced, the other rows kept"; the three scratch states after steps (1), (4), (5) and the
  output row are then named terms over the generated payloads. `read_putRows` reads a buffer after a newest store of whole
  rows as `putRows` of what the earlier stores left.
-/
import proofs.«135626_g2000603897208126_pallasbulk_572_7_alg».proof.Proof.Gen.KernelIdeal.Skeleton
import Idealize.ShloMosaic.Lib.Pipeline.Value
import Idealize.ShloMosaic.Lib.WritesUnit

noncomputable section

namespace Cert.Proof.KI

open Cert.KernelIdeal Cert.KernelIdeal.Gen
open Idealize.ShloMosaic

variable {F : FTy → Type} [FloatOps F]

/-- Rows `[o, o + W)` of a 32-row array replaced by the band `w`, every other row kept. -/
def putRows {size : Fin 2 → ℕ} (o W : ℕ) (inb : ∀ a : Fin 2, (![o, 0] : Fin 2 → ℕ) a + size a ≤ (![32, 131072] : Fin 2 → ℕ) a)
    (hW : size (0 : Fin 2) = W) (hD : size (1 : Fin 2) = (![32, 131072] : Fin 2 → ℕ) (1 : Fin 2))
    (S : Vec F S32x131072 .bf16) (w : (Rect.unit (s := S32x131072) ![o, 0] size inb).shape.Idx → Elt F .bf16) :
    Vec F S32x131072 .bf16 :=
  fun y => if h : o ≤ (y (0 : Fin 2)).val ∧ (y (0 : Fin 2)).val < o + W then
      w (Rect.unitLocal (s := S32x131072) (off := ![o, 0]) (size := size) y (Rect.unit_rows_mem y hW hD h))
    else S y

/-- A buffer read after a newest store of whole rows: those rows hold the stored band, the rest what the earlier stores left. -/
theorem read_putRows {sig' : RefSig} {κ : Kind} {sp : Space} (v : View sig' κ sp S32x131072 .bf16) (f : v.ty.Contents (Elt F))
    {size : Fin 2 → ℕ} (o W : ℕ) (inb : ∀ a : Fin 2, (![o, 0] : Fin 2 → ℕ) a + size a ≤ (![32, 131072] : Fin 2 → ℕ) a)
    (hW : size (0 : Fin 2) = W) (hD : size (1 : Fin 2) = (![32, 131072] : Fin 2 → ℕ) (1 : Fin 2))
    (w : (Rect.unit (s := S32x131072) ![o, 0] size inb).shape.Idx → Elt F .bf16) (L : List (View.Piece (Elt F) S32x131072 .bf16)) :
    v.read (Elt F) (v.writes (Elt F) f ((⟨Rect.unit (s := S32x131072) ![o, 0] size inb, w⟩ : View.Piece (Elt F) S32x131072 .bf16) :: L))
      = putRows o W inb hW hD (v.read (Elt F) (v.writes (Elt F) f L)) w :=
  funext fun y => View.read_writes_cons_rows v f inb w L y rfl hW hD

/-- The whole scratch, the feature rows, and the two eight-row hidden bands, as rectangles of the scratch. -/
abbrev rAll : Rect S32x131072 := Rect.unit (s := S32x131072) ![0, 0] ![32, 131072] inb_S32x131072_S32x131072_0_0
abbrev rFeat : Rect S32x131072 := Rect.unit (s := S32x131072) ![0, 0] ![12, 131072] inb_S32x131072_S12x131072_0_0
abbrev rHid0 : Rect S32x131072 := Rect.unit (s := S32x131072) ![16, 0] ![8, 131072] inb_S32x131072_S8x131072_16_0
abbrev rHid1 : Rect S32x131072 := Rect.unit (s := S32x131072) ![24, 0] ![8, 131072] inb_S32x131072_S8x131072_24_0

/-- The scratch after step (1): rows 0..11 hold the point's feature block `x` (narrowed), the rest of `S` is kept. -/
def scrFeat (S : Vec F S32x131072 .bf16) (x : Vec F S12x131072 .f32) : Vec F S32x131072 .bf16 :=
  putRows (size := ![12, 131072]) 0 12 inb_S32x131072_S12x131072_0_0 rfl rfl S (k0_pay3 x)

/-- The output block: product row 15 plus the output bias. -/
def outRow (S : Vec F S32x131072 .bf16) (x : Vec F S12x131072 .f32) (w : Vec F S16x32 .f32) (b2 : Vec F S1x1 .f32) :
    FVec F S1x131072 .f32 :=
  k0_pay5 w (View.ld (scrFeat S x) rAll) b2

/-- The scratch after step (4): rows 16..22 hold the rectified product rows 0..6 plus the first bias; row 23 keeps
    what `S` held there (no earlier step of the point touches it). -/
def scrHid0 (S : Vec F S32x131072 .bf16) (x : Vec F S12x131072 .f32) (w : Vec F S16x32 .f32) (b0 : Vec F S7x1 .f32) :
    Vec F S32x131072 .bf16 :=
  putRows (size := ![8, 131072]) 16 8 inb_S32x131072_S8x131072_16_0 rfl rfl (scrFeat S x)
    (updateSlice (View.ld S rHid0) (k0_pay6 w (View.ld (scrFeat S x) rAll) b0) ![0, 0] slices_S8x131072_S7x131072_0_0)

/-- The scratch after step (5), which is what the point leaves: rows 24..30 hold the rectified product rows 8..14 plus the
    second bias; row 31 keeps what `S` held there. -/
def scrNext (S : Vec F S32x131072 .bf16) (x : Vec F S12x131072 .f32) (w : Vec F S16x32 .f32) (b0 b1 : Vec F S7x1 .f32) :
    Vec F S32x131072 .bf16 :=
  putRows (size := ![8, 131072]) 24 8 inb_S32x131072_S8x131072_24_0 rfl rfl (scrHid0 S x w b0)
    (updateSlice (View.ld S rHid1) (k0_pay1 (k0_pay7 w (View.ld (scrFeat S x) rAll)) b1) ![0, 0] slices_S8x131072_S7x131072_0_0)

end Cert.Proof.KI

end
-- ==== Proof.KIBody.lean ====
/-
  The kernel body's triple at a grid point, in the two cases of its one conditional.

  At the first grid point the body first fills the whole scratch with zeros; at every other point it does not. After
  that both cases run the same steps, so what the point leaves is `scrNext` and `outRow` of the scratch contents the
  steps start from: the zero array at the first point, what the previous point left elsewhere. The input buffers are
  only read. Each closing equation reads the buffer after the listed stores, newest first, as the named scratch states.
-/
import proofs.«135626_g2000603897208126_pallasbulk_572_7_alg».proof.Proof.KIStep
import proofs.«135626_g2000603897208126_pallasbulk_572_7_alg».proof.Proof.Gen.KernelIdeal.Frame

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-- The body's conditional: the grid coordinate, as a 32-bit word, equals zero. -/
abbrev isFirst (i : grid0.Coords) : Prop :=
  Scalar.cmpi .ne (Scalar.extui (Scalar.cmpi .eq (BitVec.ofNat 32 (i 0).val) 0#32) : BitVec 32) 0#32 = 1#1

/-- Offsets `(0, 0)` are the zero offsets. -/
theorem off00 : (![0, 0] : Fin 2 → ℕ) = fun _ => 0 := funext fun a => by fin_cases a <;> rfl

/-- The three whole-row stores of a point, read newest first. -/
theorem read_feat {sig' : RefSig} {κ : Kind} {sp : Space} (v : View sig' κ sp S32x131072 .bf16) (f : v.ty.Contents (Elt F))
    (w : rFeat.shape.Idx → Elt F .bf16) (L : List (View.Piece (Elt F) S32x131072 .bf16)) :
    v.read (Elt F) (v.writes (Elt F) f ((⟨rFeat, w⟩ : View.Piece (Elt F) S32x131072 .bf16) :: L))
      = putRows (size := ![12, 131072]) 0 12 inb_S32x131072_S12x131072_0_0 rfl rfl (v.read (Elt F) (v.writes (Elt F) f L)) w :=
  read_putRows v f (size := ![12, 131072]) 0 12 inb_S32x131072_S12x131072_0_0 rfl rfl w L
theorem read_hid0 {sig' : RefSig} {κ : Kind} {sp : Space} (v : View sig' κ sp S32x131072 .bf16) (f : v.ty.Contents (Elt F))
    (w : rHid0.shape.Idx → Elt F .bf16) (L : List (View.Piece (Elt F) S32x131072 .bf16)) :
    v.read (Elt F) (v.writes (Elt F) f ((⟨rHid0, w⟩ : View.Piece (Elt F) S32x131072 .bf16) :: L))
      = putRows (size := ![8, 131072]) 16 8 inb_S32x131072_S8x131072_16_0 rfl rfl (v.read (Elt F) (v.writes (Elt F) f L)) w :=
  read_putRows v f (size := ![8, 131072]) 16 8 inb_S32x131072_S8x131072_16_0 rfl rfl w L
theorem read_hid1 {sig' : RefSig} {κ : Kind} {sp : Space} (v : View sig' κ sp S32x131072 .bf16) (f : v.ty.Contents (Elt F))
    (w : rHid1.shape.Idx → Elt F .bf16) (L : List (View.Piece (Elt F) S32x131072 .bf16)) :
    v.read (Elt F) (v.writes (Elt F) f ((⟨rHid1, w⟩ : View.Piece (Elt F) S32x131072 .bf16) :: L))
      = putRows (size := ![8, 131072]) 24 8 inb_S32x131072_S8x131072_24_0 rfl rfl (v.read (Elt F) (v.writes (Elt F) f L)) w :=
  read_putRows v f (size := ![8, 131072]) 24 8 inb_S32x131072_S8x131072_24_0 rfl rfl w L

/-- A band of rows disjoint from the replaced rows reads through `putRows` to the array underneath. -/
theorem ld_putRows_of_disjoint {size : Fin 2 → ℕ} (o W : ℕ) (inb : ∀ a : Fin 2, (![o, 0] : Fin 2 → ℕ) a + size a ≤ (![32, 131072] : Fin 2 → ℕ) a)
    (hW : size (0 : Fin 2) = W) (hD : size (1 : Fin 2) = (![32, 131072] : Fin 2 → ℕ) (1 : Fin 2))
    (S : Vec F S32x131072 .bf16) (w : (Rect.unit (s := S32x131072) ![o, 0] size inb).shape.Idx → Elt F .bf16)
    {off' size' : Fin 2 → ℕ} (inb' : ∀ a : Fin 2, off' a + size' a ≤ S32x131072.size a)
    (h : o + W ≤ off' (0 : Fin 2) ∨ off' (0 : Fin 2) + size' (0 : Fin 2) ≤ o) :
    View.ld (putRows o W inb hW hD S w) (Rect.unit (s := S32x131072) off' size' inb')
      = View.ld S (Rect.unit (s := S32x131072) off' size' inb') := by
  funext x
  show putRows o W inb hW hD S w ((Rect.unit (s := S32x131072) off' size' inb').idx x) = S ((Rect.unit (s := S32x131072) off' size' inb').idx x)
  unfold putRows
  rw [dif_neg]
  intro hc
  have e : (((Rect.unit (s := S32x131072) off' size' inb').idx x) (0 : Fin 2)).val = off' (0 : Fin 2) + 1 * (x (0 : Fin 2)).val := rfl
  have hx : (x (0 : Fin 2)).val < size' (0 : Fin 2) := (x (0 : Fin 2)).isLt
  omega

theorem ld_feat_hid0 (h1 h2) (S : Vec F S32x131072 .bf16) (w) :
    View.ld (putRows (size := ![12, 131072]) 0 12 inb_S32x131072_S12x131072_0_0 h1 h2 S w) rHid0 = View.ld S rHid0 :=
  ld_putRows_of_disjoint 0 12 _ h1 h2 S w _ (Or.inl (by decide))
theorem ld_feat_hid1 (h1 h2) (S : Vec F S32x131072 .bf16) (w) :
    View.ld (putRows (size := ![12, 131072]) 0 12 inb_S32x131072_S12x131072_0_0 h1 h2 S w) rHid1 = View.ld S rHid1 :=
  ld_putRows_of_disjoint 0 12 _ h1 h2 S w _ (Or.inl (by decide))
theorem ld_hid0_hid1 (h1 h2) (S : Vec F S32x131072 .bf16) (w) :
    View.ld (putRows (size := ![8, 131072]) 16 8 inb_S32x131072_S8x131072_16_0 h1 h2 S w) rHid1 = View.ld S rHid1 :=
  ld_putRows_of_disjoint 16 8 _ h1 h2 S w _ (Or.inl (by decide))

/-- One store through the whole scratch covers it. -/
theorem cover_scr (w : Vec F S32x131072 .bf16) (y : S32x131072.Idx) :
    ∃ pc ∈ ([⟨rAll, w⟩] : List (View.Piece (Elt F) S32x131072 .bf16)), y ∈ pc.1.set :=
  View.cover_of_tiled [⟨rAll, w⟩] S32x131072.size (by rfl) y

/-- After one store through the whole scratch the scratch reads as the stored array, whatever it held. -/
theorem read_all {sig' : RefSig} {κ : Kind} {sp : Space} (v : View sig' κ sp S32x131072 .bf16) (g : v.ty.Contents (Elt F))
    (w : Vec F S32x131072 .bf16) :
    v.read (Elt F) (v.writes (Elt F) g [(⟨rAll, w⟩ : View.Piece (Elt F) S32x131072 .bf16)]) = w := by
  rw [View.read_writes_eq_canon _ _ _ (cover_scr w), View.canon_unit_zero off00]

/-- One store through the whole output block covers it. -/
theorem cover_out (w : Vec F S1x131072 .f32) (y : S1x131072.Idx) :
    ∃ pc ∈ ([⟨Rect.unit (s := S1x131072) ![0, 0] S1x131072.size inb_S1x131072_S1x131072_0_0, w⟩] : List (View.Piece (Elt F) S1x131072 .f32)), y ∈ pc.1.set :=
  View.cover_of_tiled [⟨Rect.unit (s := S1x131072) ![0, 0] S1x131072.size inb_S1x131072_S1x131072_0_0, w⟩] S1x131072.size (by rfl) y

/-- A point that is not the first: from the scratch at `S` to the scratch at `scrNext S …`, the output block at `outRow S …`. -/
theorem sound_rest (c : Dev nD) (i : grid0.Coords) (hc : ¬ isFirst i)
    (arg1 : Memref sig .tc .vmem S12x131072 .f32) (harg1 : arg1.IsWhole) (arg2 : Memref sig .tc .vmem S16x32 .f32) (harg2 : arg2.IsWhole) (arg3 : Memref sig .tc .vmem S7x1 .f32) (harg3 : arg3.IsWhole) (arg4 : Memref sig .tc .vmem S7x1 .f32) (harg4 : arg4.IsWhole) (arg5 : Memref sig .tc .vmem S1x1 .f32) (harg5 : arg5.IsWhole) (arg6 : Memref sig .tc .vmem S1x131072 .f32) (harg6 : arg6.IsWhole) (arg7 : Memref sig .tc .vmem S32x131072 .bf16) (harg7 : arg7.IsWhole)
    (x : Vec F S12x131072 .f32) (w : Vec F S16x32 .f32) (b0 b1 : Vec F S7x1 .f32) (b2 : Vec F S1x1 .f32) (S : Vec F S32x131072 .bf16)
    (K : PUnit → sProp 𝕄) :
    iprop(owns (c : Thread nD τ) arg1 fullShare x ∗ owns (c : Thread nD τ) arg2 fullShare w ∗ owns (c : Thread nD τ) arg3 fullShare b0
        ∗ owns (c : Thread nD τ) arg4 fullShare b1 ∗ owns (c : Thread nD τ) arg5 fullShare b2 ∗ (∃ d, owns (c : Thread nD τ) arg6 fullShare d)
        ∗ owns (c : Thread nD τ) arg7 fullShare S
        ∗ (iprop(owns (c : Thread nD τ) arg1 fullShare x ∗ owns (c : Thread nD τ) arg2 fullShare w ∗ owns (c : Thread nD τ) arg3 fullShare b0
            ∗ owns (c : Thread nD τ) arg4 fullShare b1 ∗ owns (c : Thread nD τ) arg5 fullShare b2
            ∗ owns (c : Thread nD τ) arg6 fullShare (outRow S x w b2)
            ∗ owns (c : Thread nD τ) arg7 fullShare (scrNext S x w b0 b1)) -∗ K ⟨⟩))
      ⊢ wp frame (wpE (defs₀ (F := F)) Variants.none c none) Set.univ (cc0__mlp_body i arg1 harg1 arg2 harg2 arg3 harg3 arg4 harg4 arg5 harg5 arg6 harg6 arg7 harg7) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_out _), View.canon_unit_zero off00]
    sl_unfold_words
    unfold outRow scrFeat
    simp only [View.readAt_eq_ld, read_feat, View.writes_nil, View.ld_unit_zero (S := S16x32) off00, View.ld_unit_zero (S := S12x131072) off00, View.ld_unit_zero (S := S1x1) off00, View.ld_unit_zero (S := S7x1) off00]
  · iexists _; isplitr
    swap; · iexact H7
    ipureintro
    sl_unfold_words
    unfold scrNext scrHid0 scrFeat
    simp only [View.readAt_eq_ld, read_hid1, read_hid0, read_feat, View.writes_nil, View.ld_unit_zero (S := S16x32) off00, View.ld_unit_zero (S := S12x131072) off00, View.ld_unit_zero (S := S1x1) off00, View.ld_unit_zero (S := S7x1) off00]

/-- The first point: whatever the scratch held, it is zeroed first; the point leaves `scrNext` and `outRow` of the zero array. -/
theorem sound_first (c : Dev nD) (i : grid0.Coords) (hc : isFirst i)
    (arg1 : Memref sig .tc .vmem S12x131072 .f32) (harg1 : arg1.IsWhole) (arg2 : Memref sig .tc .vmem S16x32 .f32) (harg2 : arg2.IsWhole) (arg3 : Memref sig .tc .vmem S7x1 .f32) (harg3 : arg3.IsWhole) (arg4 : Memref sig .tc .vmem S7x1 .f32) (harg4 : arg4.IsWhole) (arg5 : Memref sig .tc .vmem S1x1 .f32) (harg5 : arg5.IsWhole) (arg6 : Memref sig .tc .vmem S1x131072 .f32) (harg6 : arg6.IsWhole) (arg7 : Memref sig .tc .vmem S32x131072 .bf16) (harg7 : arg7.IsWhole)
    (x : Vec F S12x131072 .f32) (w : Vec F S16x32 .f32) (b0 b1 : Vec F S7x1 .f32) (b2 : Vec F S1x1 .f32)
    (K : PUnit → sProp 𝕄) :
    iprop(owns (c : Thread nD τ) arg1 fullShare x ∗ owns (c : Thread nD τ) arg2 fullShare w ∗ owns (c : Thread nD τ) arg3 fullShare b0
        ∗ owns (c : Thread nD τ) arg4 fullShare b1 ∗ owns (c : Thread nD τ) arg5 fullShare b2 ∗ (∃ d, owns (c : Thread nD τ) arg6 fullShare d)
        ∗ (∃ g, arg7.view.loc (c : Thread nD τ) ↦[arg7.view.set]{fullShare} g)
        ∗ (iprop(owns (c : Thread nD τ) arg1 fullShare x ∗ owns (c : Thread nD τ) arg2 fullShare w ∗ owns (c : Thread nD τ) arg3 fullShare b0
            ∗ owns (c : Thread nD τ) arg4 fullShare b1 ∗ owns (c : Thread nD τ) arg5 fullShare b2
            ∗ owns (c : Thread nD τ) arg6 fullShare (outRow (k0_pay2 (F := F)) x w b2)
            ∗ owns (c : Thread nD τ) arg7 fullShare (scrNext (k0_pay2 (F := F)) x w b0 b1)) -∗ K ⟨⟩))
      ⊢ wp frame (wpE (defs₀ (F := F)) Variants.none c none) Set.univ (cc0__mlp_body i arg1 harg1 arg2 harg2 arg3 harg3 arg4 harg4 arg5 harg5 arg6 harg6 arg7 harg7) K := by
  simp only [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, H7⟩, Hk⟩
  subst hf1 hf2 hf3 hf4 hf5
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (cover_out _), View.canon_unit_zero off00]
    sl_unfold_words
    unfold outRow scrFeat
    simp only [View.readCov, View.readAt_eq_ld, read_feat, read_all, View.ld_unit_zero (S := S16x32) off00, View.ld_unit_zero (S := S12x131072) off00, View.ld_unit_zero (S := S1x1) off00, View.ld_unit_zero (S := S7x1) off00]
  · iexists _; isplitr
    swap; · iexact H7
    ipureintro
    sl_unfold_words
    unfold scrNext scrHid0 scrFeat
    simp only [View.readCov, View.readAt_eq_ld, read_hid1, read_hid0, read_feat, read_all, View.ld_unit_zero (S := S16x32) off00, View.ld_unit_zero (S := S12x131072) off00, View.ld_unit_zero (S := S1x1) off00, View.ld_unit_zero (S := S7x1) off00]
    erw [ld_feat_hid0, ld_hid0_hid1, ld_feat_hid1]

end Cert.Proof.KI

end
-- ==== Proof.KIData.lean ====
/-
  The kernel's pipeline: what its buffers hold point by point, the body obligation, the run and the frame.

  The scratch is carried from grid point to grid point. `scrB n` is what it holds before position `n`: the zero array
  the first point writes, then `scrNext` of the previous contents and the previous point's blocks. The output block
  the body leaves at point `t` is `outRow` of `scrB t` and the point's blocks; every input block is left as found. The
  region invariant is the class's before the first point (the scratch at anything) and afterwards the scratch at
  `scrB` beside the generator register. The first point is the one where the body's conditional holds.
-/
import proofs.«135626_g2000603897208126_pallasbulk_572_7_alg».proof.Proof.KIBody

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The input windows' blocks at a point, under their literal types: the feature block, the stacked weights, the three biases. -/
abbrev xblk (c : Dev nD) (t : Fin cfg0.N) : Vec F S12x131072 .f32 := iblk m c 0 t
abbrev wblk (c : Dev nD) (t : Fin cfg0.N) : Vec F S16x32 .f32 := iblk m c 1 t
abbrev b0blk (c : Dev nD) (t : Fin cfg0.N) : Vec F S7x1 .f32 := iblk m c 2 t
abbrev b1blk (c : Dev nD) (t : Fin cfg0.N) : Vec F S7x1 .f32 := iblk m c 3 t
abbrev b2blk (c : Dev nD) (t : Fin cfg0.N) : Vec F S1x1 .f32 := iblk m c 4 t

/-- The scratch before position `n`: zeros before the first point's steps, then one `scrNext` per point. -/
def scrB (c : Dev nD) : (n : ℕ) → n ≤ cfg0.N → Vec F S32x131072 .bf16
  | 0, _ => k0_pay2
  | n + 1, hn => scrNext (scrB c n (Nat.le_of_succ_le hn)) (xblk m c ⟨n, hn⟩) (wblk m c ⟨n, hn⟩) (b0blk m c ⟨n, hn⟩) (b1blk m c ⟨n, hn⟩)

theorem scrB_zero (c : Dev nD) (n : ℕ) (h : n ≤ cfg0.N) (hz : n = 0) : scrB m c n h = k0_pay2 := by subst hz; rfl

theorem scrB_succ (c : Dev nD) (t : Fin cfg0.N) :
    scrB m c (t.val + 1) t.isLt = scrNext (scrB m c t.val (Nat.le_of_lt t.isLt)) (xblk m c t) (wblk m c t) (b0blk m c t) (b1blk m c t) := rfl

/-- The output block the body leaves at point `t`. -/
def outAt (c : Dev nD) (t : Fin cfg0.N) : FVec F S1x131072 .f32 :=
  outRow (scrB m c t.val (Nat.le_of_lt t.isLt)) (xblk m c t) (wblk m c t) (b2blk m c t)

/-- The scratch buffer as the body is called with it. -/
abbrev scM : Memref sig .tc .vmem S32x131072 .bf16 := Memref.whole cc0_scratch0

/-- The region invariant before position `n`. -/
def PhiS (c : Dev nD) : (n : ℕ) → n ≤ cfg0.N → sProp 𝕄
  | 0, _ => ΦA spec0 c
  | n + 1, hn => iprop(owns (c : Thread nD τ) scM fullShare (scrB m c (n + 1) hn) ∗ (∃ r, prngReg c r))

theorem PhiS_zero (c : Dev nD) (n : ℕ) (h : n ≤ cfg0.N) (hz : n = 0) : PhiS m c n h = ΦA spec0 c := by subst hz; rfl
theorem PhiS_succ (c : Dev nD) (n : ℕ) (hn : n < cfg0.N) :
    PhiS m c (n + 1) hn = iprop(owns (c : Thread nD τ) scM fullShare (scrB m c (n + 1) hn) ∗ (∃ r, prngReg c r)) := rfl
theorem PhiS_pos (c : Dev nD) (n : ℕ) (h : n ≤ cfg0.N) (hz : n ≠ 0) :
    PhiS m c n h = iprop(owns (c : Thread nD τ) scM fullShare (scrB m c n h) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- The body's conditional holds exactly at the first grid point. -/
theorem hfirst : ∀ t : Fin cfg0.N, isFirst (grid0.coords t) ↔ t.val = 0 :=
  (by decide +kernel : ∀ t : Fin grid0.N, isFirst (grid0.coords t) ↔ t.val = 0)

/-- The scratch as the class invariant holds it and as the body's run names it: one points-to. -/
theorem scr_eq (c : Dev nD) (f : Buf (Elt F) ((c : Thread nD τ).loc cc0_scratch0)) :
    ((scM).view.loc (c : Thread nD τ) ↦[(scM).view.set]{fullShare} f : sProp 𝕄)
      = ((c : Thread nD τ).loc cc0_scratch0) ↦{fullShare} f := by
  simp only [Memref.view_whole, View.set_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- The body at any point: the inputs' buffers hold their blocks; at the first point the class invariant yields the
    scratch at anything and the body zeroes it, elsewhere the invariant yields it at `scrB`; either way the body leaves it
    at the next `scrB` and the output block at `outAt`. The core's `owes` and the generator register pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rewrite [show (dats m 0 c).owesAt () t.succ = (dats m 0 c).owesAt () t.castSucc from rfl,
    after0_0, after0_1, after0_2, after0_3, after0_4, after0_5,
    show (dats m 0 c).Φ t.succ = PhiS m c (t.val + 1) t.isLt from rfl, PhiS_succ, scrB_succ, PhiS_castSucc]
  unfold outAt
  by_cases hz : t.val = 0
  · rewrite [PhiS_zero m c _ _ hz, scrB_zero m c _ _ hz]
    unfold ΦA
    rewrite [scopedRest0_eq]
    iintro ⟨⟨⟨%g, HS⟩, HR⟩, Ho, ⟨%d0, H0⟩, ⟨%d1, H1⟩, ⟨%d2, H2⟩, ⟨%d3, H3⟩, ⟨%d4, H4⟩, ⟨%d5, H5⟩⟩
    iapply (sound_first c (grid0.coords t) ((hfirst t).mpr hz) _ _ _ _ _ _ _ _ _ _ _ _ scM (Memref.isWhole_whole _)
      (xblk m c t) (wblk m c t) (b0blk m c t) (b1blk m c t) (b2blk m c t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists g; rewrite [scr_eq]; iexact HS
    iintro ⟨H0, H1, H2, H3, H4, H5, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · rewrite [PhiS_pos m c _ _ hz]
    iintro ⟨⟨HS, HR⟩, Ho, ⟨%d0, H0⟩, ⟨%d1, H1⟩, ⟨%d2, H2⟩, ⟨%d3, H3⟩, ⟨%d4, H4⟩, ⟨%d5, H5⟩⟩
    iapply (sound_rest c (grid0.coords t) (fun h => hz ((hfirst t).mp h)) _ _ _ _ _ _ _ _ _ _ _ _ scM (Memref.isWhole_whole _)
      (xblk m c t) (wblk m c t) (b0blk m c t) (b1blk m c t) (b2blk m c t) (scrB m c t.val (Nat.le_of_lt t.isLt)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's named contents are forgotten. -/
theorem hout (c : Dev nD) : (dats m 0 c).Φ (Fin.last cfg0.N) ⊢ ΦA spec0 c := by
  rw [show (dats m 0 c).Φ (Fin.last cfg0.N) = PhiS m c cfg0.N (Nat.le_refl _) from rfl,
    PhiS_pos m c _ _ (by have : cfg0.N = 10 := N_0; omega)]
  unfold ΦA owns
  rw [scopedRest0_eq]
  iintro ⟨⟨%f, -, HS⟩, HR⟩
  isplitl [HS]
  · iexists f; rw [← scr_eq]; iexact HS
  iexact HR

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, and its seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Proof.KI

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KIStepAt.lean ====
/-
  One grid point of the kernel read at an index, at the ideal values.

  The matrix product of the 16-by-32 weight block with the 32-row scratch is, at row `p` and lane `q`, the plain sum
  over the 32 scratch rows; a change of float format and a cast to the same shape are the identity; a column
  broadcast along the lanes reads the column; a band of rows cut from the product reads the product at the shifted
  row. This file reads each payload of the kernel's body at an index `(row, lane)`.
-/
import proofs.«135626_g2000603897208126_pallasbulk_572_7_alg».proof.Proof.KIStep
import proofs.«135626_g2000603897208126_pallasbulk_572_7_alg».proof.Proof.LibDot2
import Idealize.ShloMosaic.Lib.ValueIdx
import Idealize.ShloMosaic.Lib.ValueLayout
import Idealize.ShloMosaic.Lib.IdealHost

noncomputable section

namespace Cert.Proof.KI

open Cert.KernelIdeal Cert.KernelIdeal.Gen
open Idealize.ShloMosaic Idealize.ShloMosaic.ValueIdx

/-! ## Layout operations at an index -/

/-- A column `[a, 1]` broadcast along the lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A band of `m` rows stored at the top of an `n`-row array: at a row below `m` the array reads the band. -/
theorem updateSlice_top_lt {α : Type} {n m c : ℕ} (old : (⟨2, ![n, c]⟩ : Shape).Idx → α) (v : (⟨2, ![m, c]⟩ : Shape).Idx → α)
    (h : (⟨2, ![n, c]⟩ : Shape).Slices ![0, 0] ⟨2, ![m, c]⟩) (i : (⟨2, ![n, c]⟩ : Shape).Idx) (p : Fin m) (q : Fin c)
    (hp : (i 0).val = p.val) (hq : (i 1).val = q.val) : updateSlice old v ![0, 0] h i = v (ix2 p q) := by
  unfold updateSlice
  rw [dif_pos (fun a => by
    match a with
    | ⟨0, _⟩ => exact ⟨Nat.zero_le _, by show (i 0).val < 0 + m; have := p.isLt; omega⟩
    | ⟨1, _⟩ => exact ⟨Nat.zero_le _, by show (i 1).val < 0 + c; have := q.isLt; omega⟩)]
  refine congrArg v (funext fun b => Fin.ext ?_)
  match b with
  | ⟨0, _⟩ => show (i 0).val - 0 = p.val; omega
  | ⟨1, _⟩ => show (i 1).val - 0 = q.val; omega

/-- A load through the whole-scratch rectangle reads the scratch. -/
theorem ld_rAll (X : Vec Ideal S32x131072 .bf16) : View.ld X rAll = X :=
  View.ld_unit_zero (funext fun a => by fin_cases a <;> rfl) _ X

/-! ## The product's dimension numbers, coordinate by coordinate -/

theorem dot_lhs_0 (i : S16x131072.Idx) (q : dot_S16x32_S32x131072_S16x131072_1_0_0_1_n_n.contr.Idx) :
    (dot_S16x32_S32x131072_S16x131072_1_0_0_1_n_n.lhsIdx i q 0).val = (i 0).val := by
  unfold DotDims.lhsIdx
  rw [dif_neg (show ¬(0 : Fin S16x32.rank) ∈ dot_S16x32_S32x131072_S16x131072_1_0_0_1_n_n.lhsBatch by decide),
    dif_pos (show (0 : Fin S16x32.rank) ∈ dot_S16x32_S32x131072_S16x131072_1_0_0_1_n_n.lhsNonContracting by decide)]
  rfl

theorem dot_lhs_1 (i : S16x131072.Idx) (q : dot_S16x32_S32x131072_S16x131072_1_0_0_1_n_n.contr.Idx) :
    (dot_S16x32_S32x131072_S16x131072_1_0_0_1_n_n.lhsIdx i q 1).val = (q ⟨0, by decide⟩).val :=
  dot_S16x32_S32x131072_S16x131072_1_0_0_1_n_n.lhsIdx_val_of_single rfl i q

theorem dot_rhs_0 (i : S16x131072.Idx) (q : dot_S16x32_S32x131072_S16x131072_1_0_0_1_n_n.contr.Idx) :
    (dot_S16x32_S32x131072_S16x131072_1_0_0_1_n_n.rhsIdx i q 0).val = (q ⟨0, by decide⟩).val :=
  dot_S16x32_S32x131072_S16x131072_1_0_0_1_n_n.rhsIdx_val_of_single rfl i q

theorem dot_rhs_1 (i : S16x131072.Idx) (q : dot_S16x32_S32x131072_S16x131072_1_0_0_1_n_n.contr.Idx) :
    (dot_S16x32_S32x131072_S16x131072_1_0_0_1_n_n.rhsIdx i q 1).val = (i 1).val := by
  unfold DotDims.rhsIdx
  rw [dif_neg (show ¬(1 : Fin S32x131072.rank) ∈ dot_S16x32_S32x131072_S16x131072_1_0_0_1_n_n.rhsBatch by decide),
    dif_pos (show (1 : Fin S32x131072.rank) ∈ dot_S16x32_S32x131072_S16x131072_1_0_0_1_n_n.rhsNonContracting by decide)]
  rfl

/-! ## The payloads at an index -/

/-- The narrowed feature block reads the feature block. -/
theorem pay3_at (x : Vec Ideal S12x131072 .f32) (j : S12x131072.Idx) : k0_pay3 (F := Ideal) x j = x j := by
  unfold k0_pay3
  show shapeCast S12x131072 (truncf (F := Ideal) .bf16 (shapeCast S12x131072 x shapeCasts_S12x131072_S12x131072) bitsLt_bf16_f32)
    shapeCasts_S12x131072_S12x131072 j = x j
  rw [shapeCast_self, truncf_apply, shapeCast_self]

/-- The product of the weight block with the scratch, at row `p` and lane `q`. -/
theorem pay4_at (w : Vec Ideal S16x32 .f32) (v : Vec Ideal S32x131072 .bf16) (p : Fin 16) (q : Fin 131072) :
    k0_pay4 (F := Ideal) w v (ix2 p q) = ∑ a : Fin 32, w (ix2 p a) * v (ix2 a q) := by
  unfold k0_pay4
  show matmul dot_S16x32_S32x131072_S16x131072_1_0_0_1_n_n none
      (truncf .bf16 (shapeCast S16x32 w shapeCasts_S16x32_S16x32) bitsLt_bf16_f32) v
      (constant (F := Ideal) S16x131072 .f32 0x00000000#32) (ix2 p q) = _
  rw [Cert.Lib.Dot2.matmul_zero_ix2 dot_S16x32_S32x131072_S16x131072_1_0_0_1_n_n none rfl rfl
    dot_lhs_0 dot_lhs_1 dot_rhs_0 dot_rhs_1]
  refine Finset.sum_congr rfl fun a _ => ?_
  rw [truncf_apply, shapeCast_self]

/-- The bf16 zero literal is the extended real zero. -/
theorem bf16_zero : Scalar.ofBits (F := Ideal) .bf16 0x0000#16 = (0 : EReal) := Ideal.ofBits_zero_bf16

/-- The output block: product row 15 plus the output bias. -/
theorem pay5_at (w : Vec Ideal S16x32 .f32) (v : Vec Ideal S32x131072 .bf16) (b2 : Vec Ideal S1x1 .f32) (q : Fin 131072) :
    k0_pay5 (F := Ideal) w v b2 (ix2 0 q) = ∑ a : Fin 32, w (ix2 15 a) * v (ix2 a q) + b2 (ix2 0 0) := by
  unfold k0_pay5
  show addf (F := Ideal) (extractStridedSlice S1x131072 ![15, 0] (k0_pay4 (F := Ideal) w v) slices_S16x131072_o15_0_S1x131072)
      (broadcastTo S1x131072 b2 broadcasts_S1x1_S1x131072) (ix2 0 q) = _
  rw [addf_apply, slice2_axis0_apply 15 (k0_pay4 (F := Ideal) w v) slices_S16x131072_o15_0_S1x131072 0 q 15 rfl, pay4_at,
    broadcastTo_a1_ab_apply]

/-- The first hidden band: product rows 0..6 plus the first bias, rectified. -/
theorem pay6_at (w : Vec Ideal S16x32 .f32) (v : Vec Ideal S32x131072 .bf16) (b0 : Vec Ideal S7x1 .f32) (r : Fin 7) (q : Fin 131072) :
    k0_pay6 (F := Ideal) w v b0 (ix2 r q)
      = max (∑ a : Fin 32, w (ix2 ⟨r.val, by omega⟩ a) * v (ix2 a q) + b0 (ix2 r 0)) 0 := by
  unfold k0_pay6
  show shapeCast S7x131072 (maximumf (F := Ideal)
      (addf (truncf .bf16 (extractStridedSlice S7x131072 ![0, 0] (k0_pay4 (F := Ideal) w v) slices_S16x131072_o0_0_S7x131072) bitsLt_bf16_f32)
        (broadcastTo S7x131072 (truncf .bf16 b0 bitsLt_bf16_f32) broadcasts_S7x1_S7x131072))
      (broadcast S7x131072 (Scalar.ofBits .bf16 0x0000#16))) shapeCasts_S7x131072_S7x131072 (ix2 r q) = _
  rw [shapeCast_self, maximumf_apply, addf_apply, truncf_apply, broadcast_apply, bf16_zero,
    slice2_axis0_apply 0 (k0_pay4 (F := Ideal) w v) slices_S16x131072_o0_0_S7x131072 r q ⟨r.val, by omega⟩ (Nat.zero_add _).symm,
    pay4_at, broadcastTo_a1_ab_apply, truncf_apply]

/-- Product rows 8..14, narrowed. -/
theorem pay7_at (w : Vec Ideal S16x32 .f32) (v : Vec Ideal S32x131072 .bf16) (r : Fin 7) (q : Fin 131072) :
    k0_pay7 (F := Ideal) w v (ix2 r q) = ∑ a : Fin 32, w (ix2 ⟨8 + r.val, by omega⟩ a) * v (ix2 a q) := by
  unfold k0_pay7
  show truncf (F := Ideal) .bf16 (extractStridedSlice S7x131072 ![8, 0] (k0_pay4 (F := Ideal) w v) slices_S16x131072_o8_0_S7x131072)
      bitsLt_bf16_f32 (ix2 r q) = _
  rw [truncf_apply,
    slice2_axis0_apply 8 (k0_pay4 (F := Ideal) w v) slices_S16x131072_o8_0_S7x131072 r q ⟨8 + r.val, by omega⟩ rfl, pay4_at]

/-- A band plus a bias column, rectified. -/
theorem pay1_at (y : FVec Ideal S7x131072 .bf16) (b1 : Vec Ideal S7x1 .f32) (r : Fin 7) (q : Fin 131072) :
    k0_pay1 (F := Ideal) y b1 (ix2 r q) = max (y (ix2 r q) + b1 (ix2 r 0)) 0 := by
  unfold k0_pay1
  show shapeCast S7x131072 (maximumf (F := Ideal)
      (addf y (broadcastTo S7x131072 (truncf .bf16 b1 bitsLt_bf16_f32) broadcasts_S7x1_S7x131072))
      (broadcast S7x131072 (Scalar.ofBits .bf16 0x0000#16))) shapeCasts_S7x131072_S7x131072 (ix2 r q) = _
  rw [shapeCast_self, maximumf_apply, addf_apply, broadcast_apply, bf16_zero, broadcastTo_a1_ab_apply, truncf_apply]

/-! ## The scratch and the output block at an index -/

/-- Rows 0..11 of the scratch after the feature store hold the feature block. -/
theorem scrFeat_feat (S : Vec Ideal S32x131072 .bf16) (x : Vec Ideal S12x131072 .f32) (k : Fin 12) (q : Fin 131072) :
    scrFeat (F := Ideal) S x (ix2 ⟨k.val, by omega⟩ q) = x (ix2 k q) := by
  unfold scrFeat putRows
  rw [dif_pos (show 0 ≤ k.val ∧ k.val < 0 + 12 from ⟨Nat.zero_le _, by omega⟩), pay3_at]
  exact congrArg x (funext fun a => Fin.ext (by match a with | ⟨0, _⟩ => rfl | ⟨1, _⟩ => rfl))

/-- Rows 12..31 of the scratch after the feature store are what the scratch held. -/
theorem scrFeat_rest (S : Vec Ideal S32x131072 .bf16) (x : Vec Ideal S12x131072 .f32) (k : Fin 32) (hk : 12 ≤ k.val) (q : Fin 131072) :
    scrFeat (F := Ideal) S x (ix2 k q) = S (ix2 k q) := by
  unfold scrFeat putRows
  rw [dif_neg (show ¬(0 ≤ k.val ∧ k.val < 0 + 12) by omega)]

/-- The output block at a lane: product row 15 over the scratch after the feature store, plus the output bias. -/
theorem outRow_at (S : Vec Ideal S32x131072 .bf16) (x : Vec Ideal S12x131072 .f32) (w : Vec Ideal S16x32 .f32)
    (b2 : Vec Ideal S1x1 .f32) (q : Fin 131072) :
    outRow (F := Ideal) S x w b2 (ix2 0 q)
      = ∑ k : Fin 32, w (ix2 15 k) * scrFeat (F := Ideal) S x (ix2 k q) + b2 (ix2 0 0) := by
  unfold outRow
  rw [ld_rAll, pay5_at]

/-- Rows 16..22 of what the point leaves: the rectified product rows 0..6 plus the first bias. -/
theorem scrNext_hid0 (S : Vec Ideal S32x131072 .bf16) (x : Vec Ideal S12x131072 .f32) (w : Vec Ideal S16x32 .f32)
    (b0 b1 : Vec Ideal S7x1 .f32) (r : Fin 7) (q : Fin 131072) :
    scrNext (F := Ideal) S x w b0 b1 (ix2 ⟨16 + r.val, by omega⟩ q)
      = max (∑ k : Fin 32, w (ix2 ⟨r.val, by omega⟩ k) * scrFeat (F := Ideal) S x (ix2 k q) + b0 (ix2 r 0)) 0 := by
  unfold scrNext putRows
  rw [dif_neg (show ¬(24 ≤ 16 + r.val ∧ 16 + r.val < 24 + 8) by omega)]
  unfold scrHid0 putRows
  rw [dif_pos (show 16 ≤ 16 + r.val ∧ 16 + r.val < 16 + 8 by omega),
    updateSlice_top_lt _ _ _ _ r q (by show 16 + r.val - 16 = r.val; omega) rfl, ld_rAll, pay6_at]

/-- Rows 24..30 of what the point leaves: the rectified product rows 8..14 plus the second bias. -/
theorem scrNext_hid1 (S : Vec Ideal S32x131072 .bf16) (x : Vec Ideal S12x131072 .f32) (w : Vec Ideal S16x32 .f32)
    (b0 b1 : Vec Ideal S7x1 .f32) (r : Fin 7) (q : Fin 131072) :
    scrNext (F := Ideal) S x w b0 b1 (ix2 ⟨24 + r.val, by omega⟩ q)
      = max (∑ k : Fin 32, w (ix2 ⟨8 + r.val, by omega⟩ k) * scrFeat (F := Ideal) S x (ix2 k q) + b1 (ix2 r 0)) 0 := by
  unfold scrNext putRows
  rw [dif_pos (show 24 ≤ 24 + r.val ∧ 24 + r.val < 24 + 8 by omega),
    updateSlice_top_lt _ _ _ _ r q (by show 24 + r.val - 24 = r.val; omega) rfl, ld_rAll, pay1_at, pay7_at]

end Cert.Proof.KI

end
-- ==== Proof.LibScatterSet.lean ====
/-
  A scatter whose body returns the update ("set") read at one result index.

  `Host.scatter d f x idx upd` is the left fold, over the update indices in row-major order, of the
  step that replaces the result's element at `d.resultIdx? j idx` by `f` of that element and
  `upd j` (and leaves the result alone when the update index lands outside the operand). For the
  body `f = fun _ b => b` the fold's value at a result index `i` is decided by which update indices
  land on `i`: none, and the operand's element is kept; exactly one, and it is that update's
  element. Nothing is assumed of the element type.

  The second part specialises this to the scatter a slice assignment of a matrix lowers to: ONE start index, both
  axes window axes. There the update index `(a, b)` lands on `(r0 + a, c0 + b)`, so the result is the update
  inside the window (`scatter_window2_hit`) and the operand outside it (`scatter_window2_miss`).
-/
import Idealize.ShloMosaic.PureOps.ShapeOps
import Idealize.ShloMosaic.Lib.ValueIdx

namespace Cert.Lib.ScatterSet

open Idealize.ShloMosaic

variable {α : Type} {s si u : Shape} {w : Nat}

/-- One step of the fold for the body that returns the update: the update index numbered `n` in
    row-major order overwrites the element it lands on, if it lands inside the operand. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with the body "return the update" is the fold of `step`. -/
theorem scatter_eq_foldl (d : ScatterDims s si u) (x : s.Idx → α) (idx : IVec si w) (upd : u.Idx → α) :
    Host.scatter d (fun _ b => b) x idx upd = (List.finRange u.numel).foldl (step d idx upd) x := rfl

/-- A step whose update index does not land on `i` leaves the element at `i` alone. -/
theorem step_miss (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  cases h0 : d.resultIdx? (u.rowMajor.symm n) idx with
  | none => rfl
  | some i0 =>
    have hne : i ≠ i0 := fun e => h (by rw [h0, e])
    exact if_neg hne

/-- A step whose update index lands on `i` writes that update's element there. -/
theorem step_hit (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- Folding steps none of which lands on `i` keeps the accumulator's element at `i`. -/
theorem foldl_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (step d idx upd) r i = r i := by
  induction l generalizing r with
  | nil => rfl
  | cons a t ih =>
    rw [List.foldl_cons, ih _ (fun n hn => h n (List.mem_cons_of_mem _ hn))]
    exact step_miss d idx upd r a i (h a (List.mem_cons_self ..))

/-- Folding steps of which the one numbered `n₀` occurs and is the only one to land on `i` leaves
    that update's element at `i`, whatever the accumulator. -/
theorem foldl_hit (d : ScatterDims s si u) (idx : IVec si w) (upd : u.Idx → α) (i : s.Idx)
    (n₀ : Fin u.numel) (hn₀ : d.resultIdx? (u.rowMajor.symm n₀) idx = some i)
    (huniq : ∀ n, d.resultIdx? (u.rowMajor.symm n) idx = some i → n = n₀)
    (l : List (Fin u.numel)) (r : s.Idx → α) (hmem : n₀ ∈ l) :
    l.foldl (step d idx upd) r i = upd (u.rowMajor.symm n₀) := by
  induction l generalizing r with
  | nil => exact absurd hmem List.not_mem_nil
  | cons a t ih =>
    rw [List.foldl_cons]
    by_cases ht : n₀ ∈ t
    · exact ih _ ht
    · have ha : n₀ = a := by
        rcases List.mem_cons.1 hmem with e | e
        · exact e
        · exact absurd e ht
      subst ha
      rw [foldl_miss d idx upd i t _ (fun n hn e => ht (huniq n e ▸ hn))]
      exact step_hit d idx upd r n₀ i hn₀

/-- No update index lands on `i`: the scatter keeps the operand's element there. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl]
  exact foldl_miss d idx upd i _ x (fun n _ => h _)

/-- Exactly the update index `j` lands on `i`: the scatter has that update's element there. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have e : u.rowMajor.symm (u.rowMajor j) = j := u.rowMajor.symm_apply_apply j
  rw [foldl_hit d idx upd i (u.rowMajor j) (by rw [e]; exact hj)
    (fun n hn => by
      have := huniq _ hn
      rw [← this]; exact (u.rowMajor.apply_symm_apply n).symm)
    _ x (List.mem_finRange _), e]

/-! ## One window at one start index, rank 2

The scatter `x.at[r0 : r0 + r, c0 : c0 + c].set(upd)` as StableHLO writes it: operand `[R, C]`, update `[r, c]`,
both update axes window axes, no inserted axis, ONE start index vector `[2]` whose two components go to the
operand's two axes. Update index `j` lands on `(r0 + j 0, c0 + j 1)` (when that is inside the operand), so the
result is the update inside the window and the operand outside it. -/

section Window2

open Idealize.ShloMosaic.ValueIdx

variable {α : Type} {w R C r c : Nat}

/-- The start on operand axis 0 is the index vector's component 0, read signed. -/
theorem start_zero (d : ScatterDims ⟨2, ![R, C]⟩ ⟨1, ![2]⟩ ⟨2, ![r, c]⟩)
    (hsd : d.scatterDimsToOperandDims = [0, 1]) (hiv : d.indexVectorDim = 0)
    (j : (⟨2, ![r, c]⟩ : Shape).Idx) (idx : IVec ⟨1, ![2]⟩ w) :
    d.start j idx 0 = (idx (ix1 0)).toInt := by
  obtain ⟨uw, iw, sd, iv, wf⟩ := d
  dsimp only at hsd hiv
  subst hsd hiv
  unfold ScatterDims.start
  rw [dif_pos (show (0 : Fin 2) ∈ [(0 : Fin 2), 1] by decide)]
  refine congrArg BitVec.toInt (congrArg idx (funext fun b => ?_))
  have hb : b = 0 := Subsingleton.elim _ _
  subst hb
  unfold ScatterDims.siIdx
  split
  · rfl
  · next h => exact absurd rfl h

/-- The start on operand axis 1 is the index vector's component 1, read signed. -/
theorem start_one (d : ScatterDims ⟨2, ![R, C]⟩ ⟨1, ![2]⟩ ⟨2, ![r, c]⟩)
    (hsd : d.scatterDimsToOperandDims = [0, 1]) (hiv : d.indexVectorDim = 0)
    (j : (⟨2, ![r, c]⟩ : Shape).Idx) (idx : IVec ⟨1, ![2]⟩ w) :
    d.start j idx 1 = (idx (ix1 1)).toInt := by
  obtain ⟨uw, iw, sd, iv, wf⟩ := d
  dsimp only at hsd hiv
  subst hsd hiv
  unfold ScatterDims.start
  rw [dif_pos (show (1 : Fin 2) ∈ [(0 : Fin 2), 1] by decide)]
  refine congrArg BitVec.toInt (congrArg idx (funext fun b => ?_))
  have hb : b = 0 := Subsingleton.elim _ _
  subst hb
  unfold ScatterDims.siIdx
  split
  · rfl
  · next h => exact absurd rfl h

/-- With no inserted axis both operand axes are kept. -/
theorem kept_nil : (⟨2, ![R, C]⟩ : Shape).kept [] = [(0 : Fin 2), 1] := rfl

/-- The window coordinate on operand axis 0 is the update index's coordinate 0. -/
theorem window_zero (d : ScatterDims ⟨2, ![R, C]⟩ ⟨1, ![2]⟩ ⟨2, ![r, c]⟩)
    (huw : d.updateWindowDims = [0, 1]) (hiw : d.insertedWindowDims = [])
    (j : (⟨2, ![r, c]⟩ : Shape).Idx) :
    d.window j 0 = (j 0).val := by
  obtain ⟨uw, iw, sd, iv, wf⟩ := d
  dsimp only at huw hiw
  subst huw hiw
  unfold ScatterDims.window
  have h0 : (0 : Fin 2) ∈ (⟨2, ![R, C]⟩ : Shape).kept [] := by rw [kept_nil]; exact List.mem_cons_self ..
  rw [dif_pos h0]
  rfl

/-- The window coordinate on operand axis 1 is the update index's coordinate 1. -/
theorem window_one (d : ScatterDims ⟨2, ![R, C]⟩ ⟨1, ![2]⟩ ⟨2, ![r, c]⟩)
    (huw : d.updateWindowDims = [0, 1]) (hiw : d.insertedWindowDims = [])
    (j : (⟨2, ![r, c]⟩ : Shape).Idx) :
    d.window j 1 = (j 1).val := by
  obtain ⟨uw, iw, sd, iv, wf⟩ := d
  dsimp only at huw hiw
  subst huw hiw
  unfold ScatterDims.window
  have h1 : (1 : Fin 2) ∈ (⟨2, ![R, C]⟩ : Shape).kept [] := by
    rw [kept_nil]; exact List.mem_cons_of_mem _ (List.mem_cons_self ..)
  rw [dif_pos h1]
  rfl

/-- Where update index `j` lands, for a start `(r0, c0)` that is not negative: on `i` exactly when `i` is
    `(r0 + j 0, c0 + j 1)`. (That this is inside the operand is part of `i` being an index of it.) -/
theorem resultIdx?_eq_some_iff (d : ScatterDims ⟨2, ![R, C]⟩ ⟨1, ![2]⟩ ⟨2, ![r, c]⟩)
    (huw : d.updateWindowDims = [0, 1]) (hiw : d.insertedWindowDims = [])
    (hsd : d.scatterDimsToOperandDims = [0, 1]) (hiv : d.indexVectorDim = 0)
    (idx : IVec ⟨1, ![2]⟩ w) (r0 c0 : ℕ)
    (h0 : (idx (ix1 0)).toInt = (r0 : ℤ)) (h1 : (idx (ix1 1)).toInt = (c0 : ℤ))
    (j : (⟨2, ![r, c]⟩ : Shape).Idx) (i : (⟨2, ![R, C]⟩ : Shape).Idx) :
    d.resultIdx? j idx = some i ↔ (i 0).val = r0 + (j 0).val ∧ (i 1).val = c0 + (j 1).val := by
  have s0 : d.start j idx 0 + (d.window j 0 : ℤ) = ((r0 + (j 0).val : ℕ) : ℤ) := by
    rw [start_zero d hsd hiv, window_zero d huw hiw, h0, Nat.cast_add]
  have s1 : d.start j idx 1 + (d.window j 1 : ℤ) = ((c0 + (j 1).val : ℕ) : ℤ) := by
    rw [start_one d hsd hiv, window_one d huw hiw, h1, Nat.cast_add]
  have hi0 := idx2_lt0 i
  have hi1 := idx2_lt1 i
  unfold ScatterDims.resultIdx?
  split
  · next h =>
    rw [Option.some.injEq]
    constructor
    · intro e
      subst e
      refine ⟨?_, ?_⟩
      · show (d.start j idx 0 + (d.window j 0 : ℤ)).toNat = _
        rw [s0, Int.toNat_natCast]
      · show (d.start j idx 1 + (d.window j 1 : ℤ)).toNat = _
        rw [s1, Int.toNat_natCast]
    · rintro ⟨e0, e1⟩
      funext a
      apply Fin.ext
      match a with
      | ⟨0, _⟩ =>
        show (d.start j idx 0 + (d.window j 0 : ℤ)).toNat = (i 0).val
        rw [s0, Int.toNat_natCast, e0]
      | ⟨1, _⟩ =>
        show (d.start j idx 1 + (d.window j 1 : ℤ)).toNat = (i 1).val
        rw [s1, Int.toNat_natCast, e1]
  · next h =>
    constructor
    · intro e; cases e
    · rintro ⟨e0, e1⟩
      exfalso
      apply h
      intro a
      match a with
      | ⟨0, _⟩ =>
        show 0 ≤ d.start j idx 0 + (d.window j 0 : ℤ) ∧ d.start j idx 0 + (d.window j 0 : ℤ) < (R : ℤ)
        rw [s0]; omega
      | ⟨1, _⟩ =>
        show 0 ≤ d.start j idx 1 + (d.window j 1 : ℤ) ∧ d.start j idx 1 + (d.window j 1 : ℤ) < (C : ℤ)
        rw [s1]; omega

/-- Inside the window the result is the update: at `(r0 + a, c0 + b)` it is `upd (a, b)`. -/
theorem scatter_window2_hit (d : ScatterDims ⟨2, ![R, C]⟩ ⟨1, ![2]⟩ ⟨2, ![r, c]⟩)
    (huw : d.updateWindowDims = [0, 1]) (hiw : d.insertedWindowDims = [])
    (hsd : d.scatterDimsToOperandDims = [0, 1]) (hiv : d.indexVectorDim = 0)
    (x : (⟨2, ![R, C]⟩ : Shape).Idx → α) (idx : IVec ⟨1, ![2]⟩ w) (upd : (⟨2, ![r, c]⟩ : Shape).Idx → α) (r0 c0 : ℕ)
    (h0 : (idx (ix1 0)).toInt = (r0 : ℤ)) (h1 : (idx (ix1 1)).toInt = (c0 : ℤ))
    (p : Fin R) (q : Fin C) (a : Fin r) (b : Fin c) (hp : p.val = r0 + a.val) (hq : q.val = c0 + b.val) :
    Host.scatter d (fun _ b => b) x idx upd (ix2 p q) = upd (ix2 a b) := by
  refine scatter_set_hit d x idx upd (ix2 p q) (ix2 a b) ?_ ?_
  · rw [resultIdx?_eq_some_iff d huw hiw hsd hiv idx r0 c0 h0 h1]
    exact ⟨hp, hq⟩
  · intro j' hj'
    rw [resultIdx?_eq_some_iff d huw hiw hsd hiv idx r0 c0 h0 h1] at hj'
    obtain ⟨e0, e1⟩ := hj'
    have e0' : p.val = r0 + (j' 0).val := e0
    have e1' : q.val = c0 + (j' 1).val := e1
    have ha : j' 0 = a := Fin.ext (by omega)
    have hb : j' 1 = b := Fin.ext (by omega)
    subst ha hb
    exact eq_ix2 j'

/-- Outside the window the result is the operand. -/
theorem scatter_window2_miss (d : ScatterDims ⟨2, ![R, C]⟩ ⟨1, ![2]⟩ ⟨2, ![r, c]⟩)
    (huw : d.updateWindowDims = [0, 1]) (hiw : d.insertedWindowDims = [])
    (hsd : d.scatterDimsToOperandDims = [0, 1]) (hiv : d.indexVectorDim = 0)
    (x : (⟨2, ![R, C]⟩ : Shape).Idx → α) (idx : IVec ⟨1, ![2]⟩ w) (upd : (⟨2, ![r, c]⟩ : Shape).Idx → α) (r0 c0 : ℕ)
    (h0 : (idx (ix1 0)).toInt = (r0 : ℤ)) (h1 : (idx (ix1 1)).toInt = (c0 : ℤ))
    (p : Fin R) (q : Fin C)
    (h : ¬ (r0 ≤ p.val ∧ p.val < r0 + r ∧ c0 ≤ q.val ∧ q.val < c0 + c)) :
    Host.scatter d (fun _ b => b) x idx upd (ix2 p q) = x (ix2 p q) := by
  refine scatter_set_miss d x idx upd (ix2 p q) (fun j hj => h ?_)
  rw [resultIdx?_eq_some_iff d huw hiw hsd hiv idx r0 c0 h0 h1] at hj
  obtain ⟨e0, e1⟩ := hj
  have e0' : p.val = r0 + (j 0).val := e0
  have e1' : q.val = c0 + (j 1).val := e1
  have hj0 := idx2_lt0 j
  have hj1 := idx2_lt1 j
  omega

end Window2

end Cert.Lib.ScatterSet
-- ==== Proof.LibSumWindow.lean ====
/-
  A finite sum over thirty-two indices whose terms vanish outside a window.

  If `g k = 0` for every `k` outside `[o, o + n)`, the sum of `g` over `Fin 32` is the sum over `Fin n` of `g` at
  `o + a`: the window's indices are the image of an injection, and the terms off the image are zero.
-/
import Idealize.ShloMosaic.Lib.ValueIdx

namespace Cert.Lib.SumWindow

/-- The sum over `Fin N` of a function vanishing off `[o, o + n)` is the sum over the window. -/
theorem sum_window {M : Type*} [AddCommMonoid M] {N n : ℕ} (o : ℕ) (ho : o + n ≤ N) (g : Fin N → M)
    (hz : ∀ k : Fin N, (k.val < o ∨ o + n ≤ k.val) → g k = 0) :
    ∑ k : Fin N, g k = ∑ a : Fin n, g ⟨o + a.val, by have := a.isLt; omega⟩ := by
  let e : Fin n ↪ Fin N := ⟨fun a => ⟨o + a.val, by have := a.isLt; omega⟩, fun a b h => by
    have := congrArg Fin.val h
    exact Fin.ext (by simpa using this)⟩
  have hmap : ∑ a : Fin n, g ⟨o + a.val, by have := a.isLt; omega⟩ = ∑ k ∈ Finset.univ.map e, g k :=
    (Finset.sum_map Finset.univ e g).symm
  rw [hmap]
  symm
  refine Finset.sum_subset (Finset.subset_univ _) fun k _ hk => hz k ?_
  by_contra hcon
  have hlo : o ≤ k.val := by omega
  have hhi : k.val < o + n := by omega
  exact hk (Finset.mem_map.mpr ⟨⟨k.val - o, by omega⟩, Finset.mem_univ _, Fin.ext (by show o + (k.val - o) = k.val; omega)⟩)

end Cert.Lib.SumWindow
-- ==== Proof.KIWeights.lean ====
/-
  The stacked weight matrix that the host operations before the kernel region build, read by rows.

  The program starts from the 16-by-32 zero matrix and writes three blocks into it, each by a scatter whose body
  returns the update at ONE start index: the first layer's weights (7 by 12) at rows 0..6, columns 0..11; the second
  layer's weights (7 by 7) at rows 8..14, columns 16..22; the output layer's weights (1 by 7) at row 15, columns
  24..30. The three windows are pairwise disjoint, so an entry of the result is the weight of the one window that
  holds it, and zero when no window does. A row of the stacked matrix therefore has one layer's weights on that
  layer's columns and zeros elsewhere, and since zero times ANY extended real is zero (the infinite ones included)
  its 32-term product sum with any vector `f` is the layer's own 12- or 7-term sum.
-/
import proofs.«135626_g2000603897208126_pallasbulk_572_7_alg».proof.Proof.Gen.KernelIdeal.Frame
import proofs.«135626_g2000603897208126_pallasbulk_572_7_alg».proof.Proof.LibScatterSet
import proofs.«135626_g2000603897208126_pallasbulk_572_7_alg».proof.Proof.LibSumWindow
import Idealize.ShloMosaic.Lib.ValueIdx
import Idealize.ShloMosaic.PureOps.Ideal.Laws

noncomputable section

namespace Cert.Proof.KI

open Cert.KernelIdeal Cert.KernelIdeal.Gen
open Idealize.ShloMosaic Idealize.ShloMosaic.ValueIdx
open Idealize.ShloMosaic.TcCoe Idealize.ShloMosaic.Tactic
open Cert.Lib.ScatterSet

variable (m : (ℓ : Loc nD τ sig) → Buf (Elt Ideal) ℓ)

/-- The stacked weight matrix: the contents of the last scatter's result when the region is entered. -/
abbrev wst (c : Dev nD) : S16x32.Idx → EReal := (Gen.V (F := Ideal) m c main_call0_v13 : S16x32.Idx → EReal)

/-- The three weight arguments as launched, as index functions into the extended reals. -/
abbrev wstW0 (c : Dev nD) : S7x12.Idx → EReal := m ((c.tc : Thread nD τ).loc main_arg1)
abbrev wstW1 (c : Dev nD) : S7x7.Idx → EReal := m ((c.tc : Thread nD τ).loc main_arg3)
abbrev wstW2 (c : Dev nD) : S1x7.Idx → EReal := m ((c.tc : Thread nD τ).loc main_arg5)

/-- A start index as the program builds it: the two components, each a broadcast integer constant, concatenated. -/
abbrev wstStart (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- The matrix the scatters start from: the broadcast zero literal. -/
abbrev wstZero : S16x32.Idx → EReal :=
  broadcastInDim S16x32 ![] bcast_S_S16x32 (constant (F := Ideal) S_ .f32 0x00000000#32)

/-- Every entry of the starting matrix is zero. -/
theorem wstZero_apply (i : S16x32.Idx) : wstZero i = 0 := by
  show Ideal.ofBits .f32 0x00000000#32 = 0
  exact Ideal.ofBits_zero_f32

/-- The first block's matrix: the zero matrix with the first layer's weights at (0, 0). -/
abbrev wstA (c : Dev nD) : S16x32.Idx → EReal :=
  Host.scatter scatter_S16x32_S2_S7x12_01_n_01_0 (fun _ b => b) wstZero (wstStart 0#32 0#32)
    (wstW0 m c)
/-- The second: the second layer's weights at (8, 16) over that. -/
abbrev wstB (c : Dev nD) : S16x32.Idx → EReal :=
  Host.scatter scatter_S16x32_S2_S7x7_01_n_01_0 (fun _ b => b) (wstA m c) (wstStart 8#32 16#32)
    (wstW1 m c)
/-- The third: the output layer's weights at (15, 24) over that. -/
abbrev wstC (c : Dev nD) : S16x32.Idx → EReal :=
  Host.scatter scatter_S16x32_S2_S1x7_01_n_01_0 (fun _ b => b) (wstB m c) (wstStart 15#32 24#32)
    (wstW2 m c)

/-- The host operations' result at the stacked matrix's buffer is the three scatters over the zero matrix. -/
theorem wst_after (c : Dev nD) :
    (StableHlo.after (hostOps0 (F := Ideal)) (fun b => m (c, b)) (Proc.devRef .tc main_call0_v13) : S16x32.Idx → EReal)
      = wstC m c := by
  after_results
  simp only [StableHlo.TRef.ofBuf, StableHlo.TRef.toBuf, cast_eq]

/-- So is the stacked matrix. -/
theorem wst_eq (c : Dev nD) : wst m c = wstC m c := by
  rw [← wst_after]
  rfl

/-! ### The start indices -/

theorem wstStart_00_0 : ((wstStart 0#32 0#32) (ix1 0)).toInt = ((0 : ℕ) : ℤ) := rfl
theorem wstStart_00_1 : ((wstStart 0#32 0#32) (ix1 1)).toInt = ((0 : ℕ) : ℤ) := rfl
theorem wstStart_816_0 : ((wstStart 8#32 16#32) (ix1 0)).toInt = ((8 : ℕ) : ℤ) := rfl
theorem wstStart_816_1 : ((wstStart 8#32 16#32) (ix1 1)).toInt = ((16 : ℕ) : ℤ) := rfl
theorem wstStart_1524_0 : ((wstStart 15#32 24#32) (ix1 0)).toInt = ((15 : ℕ) : ℤ) := rfl
theorem wstStart_1524_1 : ((wstStart 15#32 24#32) (ix1 1)).toInt = ((24 : ℕ) : ℤ) := rfl

/-! ### An entry of each intermediate matrix: the weight inside its window, the matrix before it outside -/

/-- The first block inside its window (rows 0..6, columns 0..11). -/
theorem wstA_in (c : Dev nD) (p : Fin 16) (q : Fin 32) (a : Fin 7) (b : Fin 12) (hp : p.val = a.val) (hq : q.val = b.val) :
    wstA m c (ix2 p q) = wstW0 m c (ix2 a b) :=
  scatter_window2_hit (R := 16) (C := 32) (r := 7) (c := 12) scatter_S16x32_S2_S7x12_01_n_01_0 rfl rfl rfl rfl
    wstZero (wstStart 0#32 0#32) _ 0 0 wstStart_00_0 wstStart_00_1 p q a b (by omega) (by omega)
/-- Outside it the matrix is still zero. -/
theorem wstA_out (c : Dev nD) (p : Fin 16) (q : Fin 32) (h : ¬ (p.val < 7 ∧ q.val < 12)) :
    wstA m c (ix2 p q) = 0 :=
  (scatter_window2_miss (R := 16) (C := 32) (r := 7) (c := 12) scatter_S16x32_S2_S7x12_01_n_01_0 rfl rfl rfl rfl
    wstZero (wstStart 0#32 0#32) _ 0 0 wstStart_00_0 wstStart_00_1 p q (by omega)).trans (wstZero_apply _)

/-- The second block inside its window (rows 8..14, columns 16..22). -/
theorem wstB_in (c : Dev nD) (p : Fin 16) (q : Fin 32) (a : Fin 7) (b : Fin 7) (hp : p.val = 8 + a.val) (hq : q.val = 16 + b.val) :
    wstB m c (ix2 p q) = wstW1 m c (ix2 a b) :=
  scatter_window2_hit (R := 16) (C := 32) (r := 7) (c := 7) scatter_S16x32_S2_S7x7_01_n_01_0 rfl rfl rfl rfl
    (wstA m c) (wstStart 8#32 16#32) _ 8 16 wstStart_816_0 wstStart_816_1 p q a b hp hq
/-- Outside it the first block's matrix stands. -/
theorem wstB_out (c : Dev nD) (p : Fin 16) (q : Fin 32) (h : ¬ (8 ≤ p.val ∧ p.val < 15 ∧ 16 ≤ q.val ∧ q.val < 23)) :
    wstB m c (ix2 p q) = wstA m c (ix2 p q) :=
  scatter_window2_miss (R := 16) (C := 32) (r := 7) (c := 7) scatter_S16x32_S2_S7x7_01_n_01_0 rfl rfl rfl rfl
    (wstA m c) (wstStart 8#32 16#32) _ 8 16 wstStart_816_0 wstStart_816_1 p q (by omega)

/-- The third block inside its window (row 15, columns 24..30). -/
theorem wstC_in (c : Dev nD) (p : Fin 16) (q : Fin 32) (a : Fin 1) (b : Fin 7) (hp : p.val = 15 + a.val) (hq : q.val = 24 + b.val) :
    wstC m c (ix2 p q) = wstW2 m c (ix2 a b) :=
  scatter_window2_hit (R := 16) (C := 32) (r := 1) (c := 7) scatter_S16x32_S2_S1x7_01_n_01_0 rfl rfl rfl rfl
    (wstB m c) (wstStart 15#32 24#32) _ 15 24 wstStart_1524_0 wstStart_1524_1 p q a b hp hq
/-- Outside it the second block's matrix stands. -/
theorem wstC_out (c : Dev nD) (p : Fin 16) (q : Fin 32) (h : ¬ (15 ≤ p.val ∧ 24 ≤ q.val ∧ q.val < 31)) :
    wstC m c (ix2 p q) = wstB m c (ix2 p q) :=
  scatter_window2_miss (R := 16) (C := 32) (r := 1) (c := 7) scatter_S16x32_S2_S1x7_01_n_01_0 rfl rfl rfl rfl
    (wstB m c) (wstStart 15#32 24#32) _ 15 24 wstStart_1524_0 wstStart_1524_1 p q (by have := p.isLt; omega)

/-! ### The rows of the stacked matrix -/

/-- Rows 0..6 hold the first layer's weights on columns 0..11 … -/
theorem wst_rows0_in (c : Dev nD) (r : Fin 7) (a : Fin 12) (q : Fin 32) (hq : q.val = a.val) :
    wst m c (ix2 ⟨r.val, by omega⟩ q) = wstW0 m c (ix2 r a) := by
  rw [wst_eq]
  refine (wstC_out m c _ q (by show ¬ (15 ≤ r.val ∧ _); omega)).trans ?_
  refine (wstB_out m c _ q (by show ¬ (8 ≤ r.val ∧ _); omega)).trans ?_
  exact wstA_in m c _ q r a rfl hq
/-- … and zeros elsewhere. -/
theorem wst_rows0_out (c : Dev nD) (r : Fin 7) (q : Fin 32) (hq : 12 ≤ q.val) :
    wst m c (ix2 ⟨r.val, by omega⟩ q) = 0 := by
  rw [wst_eq]
  refine (wstC_out m c _ q (by show ¬ (15 ≤ r.val ∧ _); omega)).trans ?_
  refine (wstB_out m c _ q (by show ¬ (8 ≤ r.val ∧ _); omega)).trans ?_
  exact wstA_out m c _ q (by omega)

/-- Rows 8..14 hold the second layer's weights on columns 16..22 … -/
theorem wst_rows8_in (c : Dev nD) (r : Fin 7) (a : Fin 7) (q : Fin 32) (hq : q.val = 16 + a.val) :
    wst m c (ix2 ⟨8 + r.val, by omega⟩ q) = wstW1 m c (ix2 r a) := by
  rw [wst_eq]
  refine (wstC_out m c _ q (by show ¬ (15 ≤ 8 + r.val ∧ _); omega)).trans ?_
  exact wstB_in m c _ q r a rfl hq
/-- … and zeros elsewhere. -/
theorem wst_rows8_out (c : Dev nD) (r : Fin 7) (q : Fin 32) (hq : q.val < 16 ∨ 23 ≤ q.val) :
    wst m c (ix2 ⟨8 + r.val, by omega⟩ q) = 0 := by
  rw [wst_eq]
  refine (wstC_out m c _ q (by show ¬ (15 ≤ 8 + r.val ∧ _); omega)).trans ?_
  refine (wstB_out m c _ q (by omega)).trans ?_
  exact wstA_out m c _ q (by show ¬ (8 + r.val < 7 ∧ _); omega)

/-- Row 15 holds the output layer's weights on columns 24..30 … -/
theorem wst_row15_in (c : Dev nD) (a : Fin 7) (q : Fin 32) (hq : q.val = 24 + a.val) :
    wst m c (ix2 ⟨15, by omega⟩ q) = wstW2 m c (ix2 0 a) := by
  rw [wst_eq]
  exact wstC_in m c _ q 0 a rfl hq
/-- … and zeros elsewhere. -/
theorem wst_row15_out (c : Dev nD) (q : Fin 32) (hq : q.val < 24 ∨ 31 ≤ q.val) :
    wst m c (ix2 ⟨15, by omega⟩ q) = 0 := by
  rw [wst_eq]
  refine (wstC_out m c _ q (by omega)).trans ?_
  refine (wstB_out m c _ q (by show ¬ (8 ≤ 15 ∧ 15 < 15 ∧ _); omega)).trans ?_
  exact wstA_out m c _ q (by show ¬ (15 < 7 ∧ _); omega)

/-! ### The product sums -/

/-- A product sum with one of rows 0..6 is the first layer's 12-term sum over entries 0..11 of the vector. -/
theorem wst_rows0 (c : Dev nD) (r : Fin 7) (f : Fin 32 → EReal) :
    ∑ k : Fin 32, wst m c (ix2 ⟨r.val, by omega⟩ k) * f k
      = ∑ a : Fin 12, wstW0 m c (ix2 r a) * f ⟨a.val, by omega⟩ := by
  refine (Cert.Lib.SumWindow.sum_window (n := 12) 0 (by omega) (fun k => wst m c (ix2 ⟨r.val, by omega⟩ k) * f k)
    (fun k hk => by
      show wst m c (ix2 ⟨r.val, _⟩ k) * f k = 0
      rw [wst_rows0_out m c r k (by omega), zero_mul])).trans ?_
  refine Finset.sum_congr rfl fun a _ => ?_
  have e : (⟨0 + a.val, by omega⟩ : Fin 32) = ⟨a.val, by omega⟩ := Fin.ext (Nat.zero_add _)
  show wst m c (ix2 ⟨r.val, _⟩ ⟨0 + a.val, _⟩) * f ⟨0 + a.val, _⟩ = _
  rw [e, wst_rows0_in m c r a ⟨a.val, by omega⟩ rfl]

/-- A product sum with one of rows 8..14 is the second layer's 7-term sum over entries 16..22 of the vector. -/
theorem wst_rows8 (c : Dev nD) (r : Fin 7) (f : Fin 32 → EReal) :
    ∑ k : Fin 32, wst m c (ix2 ⟨8 + r.val, by omega⟩ k) * f k
      = ∑ a : Fin 7, wstW1 m c (ix2 r a) * f ⟨16 + a.val, by omega⟩ := by
  refine (Cert.Lib.SumWindow.sum_window (n := 7) 16 (by omega) (fun k => wst m c (ix2 ⟨8 + r.val, by omega⟩ k) * f k)
    (fun k hk => by
      show wst m c (ix2 ⟨8 + r.val, _⟩ k) * f k = 0
      rw [wst_rows8_out m c r k (by omega), zero_mul])).trans ?_
  refine Finset.sum_congr rfl fun a _ => ?_
  show wst m c (ix2 ⟨8 + r.val, _⟩ ⟨16 + a.val, _⟩) * f ⟨16 + a.val, _⟩ = _
  rw [wst_rows8_in m c r a ⟨16 + a.val, by omega⟩ rfl]

/-- A product sum with row 15 is the output layer's 7-term sum over entries 24..30 of the vector. -/
theorem wst_row15 (c : Dev nD) (f : Fin 32 → EReal) :
    ∑ k : Fin 32, wst m c (ix2 ⟨15, by omega⟩ k) * f k
      = ∑ a : Fin 7, wstW2 m c (ix2 0 a) * f ⟨24 + a.val, by omega⟩ := by
  refine (Cert.Lib.SumWindow.sum_window (n := 7) 24 (by omega) (fun k => wst m c (ix2 ⟨15, by omega⟩ k) * f k)
    (fun k hk => by
      show wst m c (ix2 ⟨15, _⟩ k) * f k = 0
      rw [wst_row15_out m c k (by omega), zero_mul])).trans ?_
  refine Finset.sum_congr rfl fun a _ => ?_
  show wst m c (ix2 ⟨15, _⟩ ⟨24 + a.val, _⟩) * f ⟨24 + a.val, _⟩ = _
  rw [wst_row15_in m c a ⟨24 + a.val, by omega⟩ rfl]

end Cert.Proof.KI

end
-- ==== Proof.KIBlocks.lean ====
/-
  The kernel's input blocks at a grid point, read off the arrays the region finds.

  The activation window's block at point `t` is the block of the transposed input at column block `min t 7`: its
  entry `(k, q)` is entry `(min t 7 * 131072 + q, k)` of the input matrix. The four other input windows are their
  whole arrays at block index zero, so their blocks are the arrays themselves at every point.
-/
import proofs.«135626_g2000603897208126_pallasbulk_572_7_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable (m : (ℓ : Loc nD τ sig) → Buf (Elt Ideal) ℓ)

/-! ## The four windows that are whole arrays -/

/-- The stacked-weight window's block index is zero on both axes at every point. -/
theorem widx (t : Fin cfg0.N) (a : Fin 2) : win0_1.index t a = 0 := by
  fin_cases a <;> rfl
/-- So is the first bias window's, -/
theorem b0idx (t : Fin cfg0.N) (a : Fin 2) : win0_2.index t a = 0 := by
  fin_cases a <;> rfl
/-- the second bias window's, -/
theorem b1idx (t : Fin cfg0.N) (a : Fin 2) : win0_3.index t a = 0 := by
  fin_cases a <;> rfl
/-- and the output bias window's. -/
theorem b2idx (t : Fin cfg0.N) (a : Fin 2) : win0_4.index t a = 0 := by
  fin_cases a <;> rfl

/-- The stacked-weight window's block is its whole array, at every point. -/
theorem wblk_eq (c : Dev nD) (t : Fin cfg0.N) :
    (Gen.iblk (F := Ideal) m c 1 t : S16x32.Idx → EReal) = Gen.V (F := Ideal) m c main_call0_v13 := by
  funext j
  show Gen.V (F := Ideal) m c main_call0_v13 (((cfg0.win 1).blk t).view.emb j) = _
  congr 1
  funext a; apply Fin.ext
  match a with
  | ⟨0, _⟩ => show win0_1.index t (0 : Fin 2) * 16 + 1 * (j 0).val = (j 0).val; rw [widx]; omega
  | ⟨1, _⟩ => show win0_1.index t (1 : Fin 2) * 32 + 1 * (j 1).val = (j 1).val; rw [widx]; omega

/-- The first bias window's block is the first bias as launched. -/
theorem b0blk_eq (c : Dev nD) (t : Fin cfg0.N) :
    (Gen.iblk (F := Ideal) m c 2 t : S7x1.Idx → EReal) = m ((c.tc : Thread nD τ).loc main_arg2) := by
  rw [← Gen.V_main_arg2 (F := Ideal) m c]
  funext j
  show Gen.V (F := Ideal) m c main_arg2 (((cfg0.win 2).blk t).view.emb j) = _
  congr 1
  funext a; apply Fin.ext
  match a with
  | ⟨0, _⟩ => show win0_2.index t (0 : Fin 2) * 7 + 1 * (j 0).val = (j 0).val; rw [b0idx]; omega
  | ⟨1, _⟩ => show win0_2.index t (1 : Fin 2) * 1 + 1 * (j 1).val = (j 1).val; rw [b0idx]; omega

/-- The second bias window's block is the second bias as launched. -/
theorem b1blk_eq (c : Dev nD) (t : Fin cfg0.N) :
    (Gen.iblk (F := Ideal) m c 3 t : S7x1.Idx → EReal) = m ((c.tc : Thread nD τ).loc main_arg4) := by
  rw [← Gen.V_main_arg4 (F := Ideal) m c]
  funext j
  show Gen.V (F := Ideal) m c main_arg4 (((cfg0.win 3).blk t).view.emb j) = _
  congr 1
  funext a; apply Fin.ext
  match a with
  | ⟨0, _⟩ => show win0_3.index t (0 : Fin 2) * 7 + 1 * (j 0).val = (j 0).val; rw [b1idx]; omega
  | ⟨1, _⟩ => show win0_3.index t (1 : Fin 2) * 1 + 1 * (j 1).val = (j 1).val; rw [b1idx]; omega

/-- The output bias window's block is the output bias as launched. -/
theorem b2blk_eq (c : Dev nD) (t : Fin cfg0.N) :
    (Gen.iblk (F := Ideal) m c 4 t : S1x1.Idx → EReal) = m ((c.tc : Thread nD τ).loc main_arg6) := by
  rw [← Gen.V_main_arg6 (F := Ideal) m c]
  funext j
  show Gen.V (F := Ideal) m c main_arg6 (((cfg0.win 4).blk t).view.emb j) = _
  congr 1
  funext a; apply Fin.ext
  match a with
  | ⟨0, _⟩ => show win0_4.index t (0 : Fin 2) * 1 + 1 * (j 0).val = (j 0).val; rw [b2idx]; omega
  | ⟨1, _⟩ => show win0_4.index t (1 : Fin 2) * 1 + 1 * (j 1).val = (j 1).val; rw [b2idx]; omega

/-! ## The activation window -/

/-- The activation window's block index: row block zero, column block the point's number capped at seven (the two
    drain points repeat the last column block). -/
theorem xidx : ∀ t : Fin cfg0.N, win0_0.index t (0 : Fin 2) = 0 ∧ win0_0.index t (1 : Fin 2) = min t.val 7 :=
  (by decide +kernel : ∀ t : Fin grid0.N, _)

/-- The array the activation window reads is the transposed input matrix. -/
theorem V_xT (c : Dev nD) :
    (Gen.V (F := Ideal) m c main_call0_v0 : S12x1048576.Idx → EReal)
      = transpose S12x1048576 [1, 0] (m ((c.tc : Thread nD τ).loc main_arg0)) transposes_S1048576x12_S12x1048576_1_0 := by
  show StableHlo.after hostOps0 (fun b => m (c, b)) (Proc.devRef .tc main_call0_v0) = _
  after_results
  rfl

/-- A capped column block's column lies inside the array. -/
theorem xcol_lt (t : Fin cfg0.N) (q : Fin 131072) : min t.val 7 * 131072 + q.val < 1048576 := by
  have := q.isLt; omega

/-- Entry `(k, q)` of the activation block at point `t` is feature `k` of batch row `min t 7 * 131072 + q`. -/
theorem xblk_at (c : Dev nD) (t : Fin cfg0.N) (k : Fin 12) (q : Fin 131072) :
    (Gen.iblk (F := Ideal) m c 0 t : S12x131072.Idx → EReal) (ix2 k q)
      = (m ((c.tc : Thread nD τ).loc main_arg0)) (ix2 ⟨min t.val 7 * 131072 + q.val, xcol_lt t q⟩ k) := by
  show Gen.V (F := Ideal) m c main_call0_v0 (((cfg0.win 0).blk t).view.emb (ix2 k q)) = _
  obtain ⟨e0, e1⟩ := xidx t
  have he : ((cfg0.win 0).blk t).view.emb (ix2 k q) = (ix2 k ⟨min t.val 7 * 131072 + q.val, xcol_lt t q⟩ : S12x1048576.Idx) := by
    funext a; apply Fin.ext
    match a with
    | ⟨0, _⟩ => show win0_0.index t (0 : Fin 2) * 12 + 1 * k.val = k.val; rw [e0]; omega
    | ⟨1, _⟩ => show win0_0.index t (1 : Fin 2) * 131072 + 1 * q.val = min t.val 7 * 131072 + q.val; rw [e1]; omega
  rw [he, V_xT]
  exact transpose_ix2_apply _ _ _ _

end Cert.Proof.KI

end
-- ==== Proof.KIFinal.lean ====
/-
  The result array from the output blocks.

  The output window's block index is `max (t - 2) 0` at point `t`: it stays at column block zero through the two
  fill points of the software pipeline and then advances with the point. A block is written back when its index is
  about to change and at the last point, so at points `2 … 9`, and the block written back at point `t` is column
  block `t - 2`. Column `j` of the output row is therefore entry `j % 131072` of what the body left at point
  `j / 131072 + 2`, and the result, the transposed row, reads the same at row `j`.
-/
import proofs.«135626_g2000603897208126_pallasbulk_572_7_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The write-back schedule -/

/-- The output window at point `t`: written back exactly from point two on, at row block zero and column block
    `t - 2`. -/
theorem oidx : ∀ t : Fin cfg0.N, ((cfg0.win 5).flush t = true ↔ 2 ≤ t.val)
    ∧ win0_5.index t (0 : Fin 2) = 0 ∧ win0_5.index t (1 : Fin 2) = t.val - 2 :=
  (by decide +kernel : ∀ t : Fin grid0.N, _)

/-- A column's place inside its column block. -/
theorem col_mod_lt (j : ℕ) : j % 131072 < 131072 := Nat.mod_lt _ (by norm_num)

/-- The output row as one function of the blocks the points leave: column `j` is entry `j % 131072` of the block
    left at point `j / 131072 + 2`. -/
def rowOf (O : ℕ → Vec Ideal S1x131072 .f32) : S1x1048576.Idx → EReal :=
  fun j => O ((j 1).val / 131072 + 2) (ix2 0 ⟨(j 1).val % 131072, col_mod_lt _⟩)

/-- Read at the place of entry `y` of column block `n - 2`, that function is entry `y` of the block left at
    point `n`. -/
theorem rowOf_at (O : ℕ → Vec Ideal S1x131072 .f32) (n : ℕ) (hn : 2 ≤ n) (j : S1x1048576.Idx) (y : S1x131072.Idx)
    (h1 : (j 1).val = (n - 2) * 131072 + (y 1).val) : rowOf O j = O n y := by
  have hy : (y 1).val < 131072 := (y 1).isLt
  have hd : (j 1).val / 131072 + 2 = n := by omega
  have hm : (j 1).val % 131072 = (y 1).val := by omega
  unfold rowOf
  rw [hd]
  congr 1
  funext a
  match a with
  | ⟨0, _⟩ => exact Fin.ext (by have : (y 0).val < 1 := (y 0).isLt; show 0 = (y 0).val; omega)
  | ⟨1, _⟩ => exact Fin.ext hm

/-! ## From the blocks to the output row -/

section Row

variable (dats : (p : Fin 1) → (c : Dev nD) → Dat τ (Elt Ideal) Unit ℕ (UR sig nD τ) ℕ (cfgs p) c)
  (O : Dev nD → ℕ → Vec Ideal S1x131072 .f32)

/-- What a point from the second on writes back is its block of the output row's function. -/
theorem flushed_eq (hafter : ∀ c (t : Fin cfg0.N), (dats 0 c).after 5 t = O c t.val) (c : Dev nD) (t : Fin cfg0.N) (hf : (cfg0.win 5).flush t = true) :
    (dats 0 c).flushed 5 t = ((cfg0.win 5).blk t).view.read (Elt Ideal) (rowOf (O c)) := by
  show (cfg0.win 5).cut (grid0.coords t) ((dats 0 c).after 5 t) = _
  rw [hafter]
  obtain ⟨e0, e1, e2⟩ := oidx t
  funext y
  show O c t.val y = rowOf (O c) (((cfg0.win 5).blk t).view.emb y)
  refine (rowOf_at (O c) t.val (e0.mp hf) _ y ?_).symm
  show win0_5.index t (1 : Fin 2) * 131072 + 1 * (y 1).val = (t.val - 2) * 131072 + (y 1).val
  rw [e2]; omega

/-- An index of the output row is in point `t`'s block iff each coordinate is in the block's range on its axis. -/
theorem mem_oblk (t : Fin cfg0.N) (i : S1x1048576.Idx) :
    i ∈ ((cfg0.win 5).blk t).view.set ↔ ∀ a : Fin 2, win0_5.index t a * S1x131072.size a ≤ (i a).val ∧ (i a).val < win0_5.index t a * S1x131072.size a + S1x131072.size a := by
  show i ∈ ((View.whole main_call0_v14).slice (win0_5.rect t)).set ↔ _
  rw [View.set_slice_whole, Rect.mem_set_unit]
  exact Iff.rfl

/-- Every column of the output row lies in the block some point writes back: column `j` in point `j / 131072 + 2`'s. -/
theorem ocover (i : S1x1048576.Idx) : ∃ t : Fin cfg0.N, (cfg0.win 5).flush t = true ∧ i ∈ ((cfg0.win 5).blk t).view.set := by
  have hi0 : (i 0).val < 1 := (i 0).isLt
  have hi1 : (i 1).val < 1048576 := (i 1).isLt
  have hN : cfg0.N = 10 := N_0
  let t : Fin cfg0.N := ⟨(i 1).val / 131072 + 2, by rw [hN]; omega⟩
  obtain ⟨e0, e1, e2⟩ := oidx t
  refine ⟨t, e0.mpr (by show 2 ≤ (i 1).val / 131072 + 2; omega), ?_⟩
  rw [mem_oblk]
  intro a
  have ht : t.val = (i 1).val / 131072 + 2 := rfl
  match a with
  | ⟨0, _⟩ => show win0_5.index t (0 : Fin 2) * 1 ≤ (i 0).val ∧ (i 0).val < win0_5.index t (0 : Fin 2) * 1 + 1; rw [e1]; omega
  | ⟨1, _⟩ => show win0_5.index t (1 : Fin 2) * 131072 ≤ (i 1).val ∧ (i 1).val < win0_5.index t (1 : Fin 2) * 131072 + 131072; rw [e2, ht]; omega

/-- The output row after the run. -/
theorem orow (hafter : ∀ c (t : Fin cfg0.N), (dats 0 c).after 5 t = O c t.val) (c : Dev nD) : (dats 0 c).arrAt 5 cfg0.N = rowOf (O c) :=
  (dats 0 c).arrAt_eq_of_cover 5 (rowOf (O c)) (fun t hf => flushed_eq dats O hafter c t hf) ocover

end Row

/-! ## The result: the output row transposed -/

/-- The result column: row `i` is entry `i % 131072` of the block the body left at point `i / 131072 + 2`, for any
    proof data whose output block after point `t` is `O c t`. The one operation after the region transposes the output
    row, which the write-backs have filled block by block. -/
theorem final_v0 (m : (ℓ : Loc nD τ sig) → Buf (Elt Ideal) ℓ)
    (dats : (p : Fin 1) → (c : Dev nD) → Dat τ (Elt Ideal) Unit ℕ (UR sig nD τ) ℕ (cfgs p) c)
    (O : Dev nD → ℕ → Vec Ideal S1x131072 .f32) (hafter : ∀ c (t : Fin cfg0.N), (dats 0 c).after 5 t = O c t.val)
    (hA : ∀ c w, (dats 0 c).A w = Gen.V (F := Ideal) m c (Pipeline.arrRef spec0 w)) (c : Dev nD) :
    (Pipeline.afterTail₀ cfgs dats 0 (Gen.V0 (F := Ideal) m) [Gen.hostOps1] c main_v0 : S1048576x1.Idx → EReal)
      = fun i => O c ((i 0).val / 131072 + 2) (ix2 0 ⟨(i 0).val % 131072, Nat.mod_lt _ (by norm_num)⟩) := by
  unfold Pipeline.afterTail₀
  show StableHlo.after hostOps1 _ (Proc.devRef .tc main_v0) = _
  after_results
  have hrow : Pipeline.withArrays (cfgs 0).spec c (V0 m c) (fun w => (dats 0 c).arrAt w (cfgs 0).N) (Proc.devRef .tc main_call0_v14)
      = rowOf (O c) :=
    (Pipeline.withArrays_arr spec0 launch0.win.arr_inj c _ _ 5).trans (orow dats O hafter c)
  show transpose S1048576x1 [1, 0] (Pipeline.withArrays (cfgs 0).spec c (V0 m c) (fun w => (dats 0 c).arrAt w (cfgs 0).N) (Proc.devRef .tc main_call0_v14))
      transposes_S1x1048576_S1048576x1_1_0 = _
  rw [hrow]
  funext i
  exact transpose_apply [1, 0] (rowOf (O c)) transposes_S1x1048576_S1048576x1_1_0 i (ix2 (n0 := 1) (n1 := 1048576) (i 1) (i 0))
    (fun b => match b with | ⟨0, _⟩ => rfl | ⟨1, _⟩ => rfl)

end Cert.Proof.KI

end
-- ==== Proof.Spec.lean ====
/-
  The network both programs compute, stated once on the extended reals, one batch row at a time.

  For a batch row `p` of the input matrix `x` (12 features per row) the first hidden layer is
  `h0 r = max (∑ a, w0[r, a] * x[p, a] + b0[r]) 0` for the seven units `r`; the second hidden layer is
  `h1 r = max (∑ a, w1[r, a] * h0 a + b1[r]) 0`; and the logit is `∑ a, w2[0, a] * h1 a + b2`.
  The result array has one logit per batch row. Every product is weight times activation, in that order,
  which is the order both matrix units multiply in; no law beyond reindexing a finite sum is needed to
  join the two programs to this function, so infinite entries cause no exception.
-/
import Idealize.ShloMosaic.Lib.ValueIdx
import Idealize.ShloMosaic.PureOps.Ideal

noncomputable section

namespace Cert.Proof.Mlp

open Idealize.ShloMosaic Idealize.ShloMosaic.ValueIdx

/-- The first hidden layer of batch row `p`: unit `r` is the rectified affine form of the row's twelve features. -/
def hid0 {B : Nat} (x : (⟨2, ![B, 12]⟩ : Shape).Idx → EReal) (w0 : (⟨2, ![7, 12]⟩ : Shape).Idx → EReal)
    (b0 : (⟨2, ![7, 1]⟩ : Shape).Idx → EReal) (p : Fin B) (r : Fin 7) : EReal :=
  max (∑ a : Fin 12, w0 (ix2 r a) * x (ix2 p a) + b0 (ix2 r 0)) 0

/-- A hidden layer of seven units over seven activations `h`: unit `r` is the rectified affine form of `h`. -/
def hid1 (w1 : (⟨2, ![7, 7]⟩ : Shape).Idx → EReal) (b1 : (⟨2, ![7, 1]⟩ : Shape).Idx → EReal) (h : Fin 7 → EReal)
    (r : Fin 7) : EReal :=
  max (∑ a : Fin 7, w1 (ix2 r a) * h a + b1 (ix2 r 0)) 0

/-- The output unit over seven activations `h`: an affine form, not rectified. -/
def logit (w2 : (⟨2, ![1, 7]⟩ : Shape).Idx → EReal) (b2 : (⟨2, ![1, 1]⟩ : Shape).Idx → EReal) (h : Fin 7 → EReal) : EReal :=
  ∑ a : Fin 7, w2 (ix2 0 a) * h a + b2 (ix2 0 0)

/-- The logit of batch row `p`. -/
def rowLogit {B : Nat} (x : (⟨2, ![B, 12]⟩ : Shape).Idx → EReal) (w0 : (⟨2, ![7, 12]⟩ : Shape).Idx → EReal)
    (b0 : (⟨2, ![7, 1]⟩ : Shape).Idx → EReal) (w1 : (⟨2, ![7, 7]⟩ : Shape).Idx → EReal)
    (b1 : (⟨2, ![7, 1]⟩ : Shape).Idx → EReal) (w2 : (⟨2, ![1, 7]⟩ : Shape).Idx → EReal)
    (b2 : (⟨2, ![1, 1]⟩ : Shape).Idx → EReal) (p : Fin B) : EReal :=
  logit w2 b2 (hid1 w1 b1 (hid0 x w0 b0 p))

/-- The whole result: a column of logits, one per batch row. -/
def mlp (x : (⟨2, ![1048576, 12]⟩ : Shape).Idx → EReal) (w0 : (⟨2, ![7, 12]⟩ : Shape).Idx → EReal)
    (b0 : (⟨2, ![7, 1]⟩ : Shape).Idx → EReal) (w1 : (⟨2, ![7, 7]⟩ : Shape).Idx → EReal)
    (b1 : (⟨2, ![7, 1]⟩ : Shape).Idx → EReal) (w2 : (⟨2, ![1, 7]⟩ : Shape).Idx → EReal)
    (b2 : (⟨2, ![1, 1]⟩ : Shape).Idx → EReal) : (⟨2, ![1048576, 1]⟩ : Shape).Idx → EReal :=
  fun i => rowLogit x w0 b0 w1 b1 w2 b2 (i 0)

end Cert.Proof.Mlp

end
-- ==== Proof.KIBridge.lean ====
/-
  The idealized kernel computes the network.

  The kernel software-pipelines the three layers across grid points through its scratch: a point's one matrix product
  with the stacked block-diagonal weight matrix yields, at once, the first hidden layer of the point's own feature
  block (product rows 0..6, from scratch rows 0..11), the second hidden layer of the PREVIOUS point's first hidden
  layer (product rows 8..14, from scratch rows 16..22) and the logits of the second hidden layer the previous point
  left (product row 15, from scratch rows 24..30). Every other entry of the stacked matrix is zero, and zero times any
  extended real is zero, so each 32-term product sum is the layer's own 12- or 7-term sum whatever the other scratch
  rows hold. Unrolling three points, the output row written at point `b + 2` is the network applied to feature block
  `b`; the result window's block index `max (i - 2) 0` sends that row to result block `b`, and feature block `b` is batch
  rows `131072 b` onwards of the transposed input.
-/
import proofs.«135626_g2000603897208126_pallasbulk_572_7_alg».proof.Proof.KIData
import proofs.«135626_g2000603897208126_pallasbulk_572_7_alg».proof.Proof.KIStepAt
import proofs.«135626_g2000603897208126_pallasbulk_572_7_alg».proof.Proof.KIWeights
import proofs.«135626_g2000603897208126_pallasbulk_572_7_alg».proof.Proof.KIBlocks
import proofs.«135626_g2000603897208126_pallasbulk_572_7_alg».proof.Proof.KIFinal
import proofs.«135626_g2000603897208126_pallasbulk_572_7_alg».proof.Proof.Spec

set_option maxRecDepth 16384

noncomputable section

namespace Cert.Proof.KI

open Cert.KernelIdeal Cert.KernelIdeal.Gen
open Idealize.ShloMosaic Idealize.ShloMosaic.ValueIdx
open Idealize.ShloMosaic.TcCoe
open Idealize.SL Idealize.SL.Sem
open Idealize.ShloMosaic.Pipeline (Dat)

variable (m : (ℓ : Loc nD τ sig) → Buf (Elt Ideal) ℓ)

/-- The seven argument arrays as index functions into the extended reals. -/
abbrev aX (c : Dev nD) : S1048576x12.Idx → EReal := m ((c.tc : Thread nD τ).loc main_arg0)
abbrev aW0 (c : Dev nD) : S7x12.Idx → EReal := m ((c.tc : Thread nD τ).loc main_arg1)
abbrev aB0 (c : Dev nD) : S7x1.Idx → EReal := m ((c.tc : Thread nD τ).loc main_arg2)
abbrev aW1 (c : Dev nD) : S7x7.Idx → EReal := m ((c.tc : Thread nD τ).loc main_arg3)
abbrev aB1 (c : Dev nD) : S7x1.Idx → EReal := m ((c.tc : Thread nD τ).loc main_arg4)
abbrev aW2 (c : Dev nD) : S1x7.Idx → EReal := m ((c.tc : Thread nD τ).loc main_arg5)
abbrev aB2 (c : Dev nD) : S1x1.Idx → EReal := m ((c.tc : Thread nD τ).loc main_arg6)

/-- After point `n`, scratch rows 16..22 hold the first hidden layer of the point's feature block: the stacked matrix's
    rows 0..6 are the first layer's weights on columns 0..11 and zero elsewhere, and a zero weight kills its term. -/
theorem hid0_at (c : Dev nD) (n : ℕ) (hn : n < cfg0.N) (r : Fin 7) (q : Fin 131072) :
    scrB (F := Ideal) m c (n + 1) hn (ix2 ⟨16 + r.val, by omega⟩ q)
      = max (∑ a : Fin 12, aW0 m c (ix2 r a) * xblk (F := Ideal) m c ⟨n, hn⟩ (ix2 a q) + aB0 m c (ix2 r 0)) 0 := by
  refine (congrFun (scrB_succ m c ⟨n, hn⟩) _).trans ?_
  rw [scrNext_hid0]
  have hw : wblk (F := Ideal) m c ⟨n, hn⟩ = wst m c := wblk_eq m c ⟨n, hn⟩
  have hb : b0blk (F := Ideal) m c ⟨n, hn⟩ = aB0 m c := b0blk_eq m c ⟨n, hn⟩
  rw [hw, hb]
  have h := wst_rows0 m c r (fun k => scrFeat (F := Ideal) (scrB m c n (Nat.le_of_lt hn)) (xblk m c ⟨n, hn⟩) (ix2 k q))
  beta_reduce at h
  rw [h]
  simp only [scrFeat_feat]

/-- After point `n`, scratch rows 24..30 hold the second hidden layer of what rows 16..22 held BEFORE the point. -/
theorem hid1_at (c : Dev nD) (n : ℕ) (hn : n < cfg0.N) (r : Fin 7) (q : Fin 131072) :
    scrB (F := Ideal) m c (n + 1) hn (ix2 ⟨24 + r.val, by omega⟩ q)
      = max (∑ a : Fin 7, aW1 m c (ix2 r a) * scrB (F := Ideal) m c n (Nat.le_of_lt hn) (ix2 ⟨16 + a.val, by omega⟩ q) + aB1 m c (ix2 r 0)) 0 := by
  refine (congrFun (scrB_succ m c ⟨n, hn⟩) _).trans ?_
  rw [scrNext_hid1]
  have hw : wblk (F := Ideal) m c ⟨n, hn⟩ = wst m c := wblk_eq m c ⟨n, hn⟩
  have hb : b1blk (F := Ideal) m c ⟨n, hn⟩ = aB1 m c := b1blk_eq m c ⟨n, hn⟩
  rw [hw, hb]
  have h := wst_rows8 m c r (fun k => scrFeat (F := Ideal) (scrB m c n (Nat.le_of_lt hn)) (xblk m c ⟨n, hn⟩) (ix2 k q))
  beta_reduce at h
  rw [h]
  refine congrArg (fun s => max (s + aB1 m c (ix2 r 0)) 0) (Finset.sum_congr rfl fun a _ => ?_)
  rw [scrFeat_rest _ _ ⟨16 + a.val, by omega⟩ (by show 12 ≤ 16 + a.val; omega) q]

/-- The output block of point `n` is the output unit over what rows 24..30 held BEFORE the point. -/
theorem out_at (c : Dev nD) (n : ℕ) (hn : n < cfg0.N) (q : Fin 131072) :
    outAt (F := Ideal) m c ⟨n, hn⟩ (ix2 0 q)
      = ∑ a : Fin 7, aW2 m c (ix2 0 a) * scrB (F := Ideal) m c n (Nat.le_of_lt hn) (ix2 ⟨24 + a.val, by omega⟩ q) + aB2 m c (ix2 0 0) := by
  unfold outAt
  rw [outRow_at]
  have hw : wblk (F := Ideal) m c ⟨n, hn⟩ = wst m c := wblk_eq m c ⟨n, hn⟩
  have hb : b2blk (F := Ideal) m c ⟨n, hn⟩ = aB2 m c := b2blk_eq m c ⟨n, hn⟩
  rw [hw, hb]
  have h := wst_row15 m c (fun k => scrFeat (F := Ideal) (scrB m c n (Nat.le_of_lt hn)) (xblk m c ⟨n, hn⟩) (ix2 k q))
  beta_reduce at h
  have e15 : (15 : Fin 16) = ⟨15, by omega⟩ := rfl
  rw [e15, h]
  refine congrArg (· + aB2 m c (ix2 0 0)) (Finset.sum_congr rfl fun a _ => ?_)
  rw [scrFeat_rest _ _ ⟨24 + a.val, by omega⟩ (by show 12 ≤ 24 + a.val; omega) q]

/-- The kernel's result array is the network's: result block `b` is written back after point `b + 2`, whose output
    row is the output unit over the second hidden layer point `b + 1` left, which is over the first hidden layer point `b`
    left, which is over feature block `b`, that is batch rows `131072 b … 131072 b + 131071`. -/
theorem kernel_value (c : Dev nD) :
    (Pipeline.afterTail₀ cfgs (dats (F := Ideal) m) 0 (V0 (F := Ideal) m) [hostOps1] c main_v0 : S1048576x1.Idx → EReal)
      = Cert.Proof.Mlp.mlp (aX m c) (aW0 m c) (aB0 m c) (aW1 m c) (aB1 m c) (aW2 m c) (aB2 m c) := by
  rw [final_v0 m (dats (F := Ideal) m) (fun c n => if h : n < cfg0.N then outAt (F := Ideal) m c ⟨n, h⟩ else fun _ => 0)
    (fun c t => by
      rw [after0_5]
      show outAt (F := Ideal) m c t = dite (t.val < cfg0.N) (fun h => outAt (F := Ideal) m c ⟨t.val, h⟩) (fun _ => fun _ => 0)
      rw [dif_pos t.isLt]) (A_eq m) c]
  funext (i : S1048576x1.Idx)
  have hN : cfg0.N = 10 := N_0
  have hp : (i 0).val < 1048576 := (i 0).isLt
  have hb2 : (i 0).val / 131072 + 2 < cfg0.N := by rw [hN]; omega
  have hb1 : (i 0).val / 131072 + 1 < cfg0.N := by rw [hN]; omega
  have hb0 : (i 0).val / 131072 < cfg0.N := by rw [hN]; omega
  have hq : (i 0).val % 131072 < 131072 := Nat.mod_lt _ (by norm_num)
  beta_reduce
  rw [dif_pos hb2]
  refine (out_at m c _ hb2 ⟨(i 0).val % 131072, hq⟩).trans ?_
  unfold Cert.Proof.Mlp.mlp Cert.Proof.Mlp.rowLogit Cert.Proof.Mlp.logit
  congr 1
  refine Finset.sum_congr rfl fun a _ => ?_
  congr 1
  refine (hid1_at m c ((i 0).val / 131072 + 1) hb1 a ⟨(i 0).val % 131072, hq⟩).trans ?_
  unfold Cert.Proof.Mlp.hid1
  congr 2
  refine Finset.sum_congr rfl fun a' _ => ?_
  congr 1
  refine (hid0_at m c ((i 0).val / 131072) hb0 a' ⟨(i 0).val % 131072, hq⟩).trans ?_
  unfold Cert.Proof.Mlp.hid0
  congr 2
  refine Finset.sum_congr rfl fun a'' _ => ?_
  congr 1
  refine (xblk_at m c ⟨(i 0).val / 131072, hb0⟩ a'' ⟨(i 0).val % 131072, hq⟩).trans ?_
  congr 1
  funext d
  match d with
  | ⟨0, _⟩ =>
    apply Fin.ext
    show min ((i 0).val / 131072) 7 * 131072 + (i 0).val % 131072 = (i 0).val
    have : (i 0).val / 131072 ≤ 7 := by omega
    rw [Nat.min_eq_left this]
    have := Nat.div_add_mod (i 0).val 131072
    omega
  | ⟨1, _⟩ => rfl

/-- The idealized kernel's run with its result: every weakly fair execution terminates, the result buffer holds the
    network's function of the argument arrays, and the arguments end as they began. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Proof.Mlp.mlp (aX m c) (aW0 m c) (aB0 m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (kernel_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c)))⟩) (run_main m ρ)

end Cert.Proof.KI

end
-- ==== Proof.RefBlock.lean ====
/-
  The reference kernel body's result at one lane.

  The body loads a block of twelve feature rows by 16384 batch lanes, the three weight matrices and the three bias
  columns, and stores one row of 16384 logits. At lane `q` the stored value is the network of the specification
  applied to the twelve features the block holds in column `q`: each of the three matrix products into a zero
  accumulator is a finite sum of weight times activation, each bias column is spread along the lanes, and the maximum
  against the zero splat is the rectifier.
-/
import proofs.«135626_g2000603897208126_pallasbulk_572_7_alg».proof.Proof.Gen.ReferenceIdeal.Skeleton
import proofs.«135626_g2000603897208126_pallasbulk_572_7_alg».proof.Proof.LibDot2
import proofs.«135626_g2000603897208126_pallasbulk_572_7_alg».proof.Proof.Spec
import Idealize.ShloMosaic.Lib.ValueIdx
import Idealize.ShloMosaic.Lib.Pipeline.Value
import Idealize.ShloMosaic.PureOps.Ideal.Laws

noncomputable section

namespace Cert.Proof.RefSide

open Cert.ReferenceIdeal Cert.ReferenceIdeal.Gen Idealize.ShloMosaic Idealize.ShloMosaic.ValueIdx
open Cert.Proof.Mlp

/-! ## The three products' dimension numbers, coordinate by coordinate

Each product contracts the left operand's second axis with the right operand's first; the left operand's first axis
is the result's row and the right operand's second axis is the result's lane. -/

theorem d0_rank : (dot_S7x12_S12x16384_S7x16384_1_0_0_1_n_n).contr.rank = 1 := rfl
theorem d0_size : (dot_S7x12_S12x16384_S7x16384_1_0_0_1_n_n).contr.size ⟨0, by decide⟩ = 12 := rfl
theorem d0_l0 (i : S7x16384.Idx) (q : (dot_S7x12_S12x16384_S7x16384_1_0_0_1_n_n).contr.Idx) :
    ((dot_S7x12_S12x16384_S7x16384_1_0_0_1_n_n).lhsIdx i q 0).val = (i 0).val := by
  simp [DotDims.lhsIdx, dot_S7x12_S12x16384_S7x16384_1_0_0_1_n_n]
  rfl
theorem d0_l1 (i : S7x16384.Idx) (q : (dot_S7x12_S12x16384_S7x16384_1_0_0_1_n_n).contr.Idx) :
    ((dot_S7x12_S12x16384_S7x16384_1_0_0_1_n_n).lhsIdx i q 1).val = (q ⟨0, by decide⟩).val :=
  DotDims.lhsIdx_val_of_single _ rfl i q
theorem d0_r0 (i : S7x16384.Idx) (q : (dot_S7x12_S12x16384_S7x16384_1_0_0_1_n_n).contr.Idx) :
    ((dot_S7x12_S12x16384_S7x16384_1_0_0_1_n_n).rhsIdx i q 0).val = (q ⟨0, by decide⟩).val :=
  DotDims.rhsIdx_val_of_single _ rfl i q
theorem d0_r1 (i : S7x16384.Idx) (q : (dot_S7x12_S12x16384_S7x16384_1_0_0_1_n_n).contr.Idx) :
    ((dot_S7x12_S12x16384_S7x16384_1_0_0_1_n_n).rhsIdx i q 1).val = (i 1).val := by
  simp [DotDims.rhsIdx, dot_S7x12_S12x16384_S7x16384_1_0_0_1_n_n]
  rfl

theorem d1_rank : (dot_S7x7_S7x16384_S7x16384_1_0_0_1_n_n).contr.rank = 1 := rfl
theorem d1_size : (dot_S7x7_S7x16384_S7x16384_1_0_0_1_n_n).contr.size ⟨0, by decide⟩ = 7 := rfl
theorem d1_l0 (i : S7x16384.Idx) (q : (dot_S7x7_S7x16384_S7x16384_1_0_0_1_n_n).contr.Idx) :
    ((dot_S7x7_S7x16384_S7x16384_1_0_0_1_n_n).lhsIdx i q 0).val = (i 0).val := by
  simp [DotDims.lhsIdx, dot_S7x7_S7x16384_S7x16384_1_0_0_1_n_n]
  rfl
theorem d1_l1 (i : S7x16384.Idx) (q : (dot_S7x7_S7x16384_S7x16384_1_0_0_1_n_n).contr.Idx) :
    ((dot_S7x7_S7x16384_S7x16384_1_0_0_1_n_n).lhsIdx i q 1).val = (q ⟨0, by decide⟩).val :=
  DotDims.lhsIdx_val_of_single _ rfl i q
theorem d1_r0 (i : S7x16384.Idx) (q : (dot_S7x7_S7x16384_S7x16384_1_0_0_1_n_n).contr.Idx) :
    ((dot_S7x7_S7x16384_S7x16384_1_0_0_1_n_n).rhsIdx i q 0).val = (q ⟨0, by decide⟩).val :=
  DotDims.rhsIdx_val_of_single _ rfl i q
theorem d1_r1 (i : S7x16384.Idx) (q : (dot_S7x7_S7x16384_S7x16384_1_0_0_1_n_n).contr.Idx) :
    ((dot_S7x7_S7x16384_S7x16384_1_0_0_1_n_n).rhsIdx i q 1).val = (i 1).val := by
  simp [DotDims.rhsIdx, dot_S7x7_S7x16384_S7x16384_1_0_0_1_n_n]
  rfl

theorem d2_rank : (dot_S1x7_S7x16384_S1x16384_1_0_0_1_n_n).contr.rank = 1 := rfl
theorem d2_size : (dot_S1x7_S7x16384_S1x16384_1_0_0_1_n_n).contr.size ⟨0, by decide⟩ = 7 := rfl
theorem d2_l0 (i : S1x16384.Idx) (q : (dot_S1x7_S7x16384_S1x16384_1_0_0_1_n_n).contr.Idx) :
    ((dot_S1x7_S7x16384_S1x16384_1_0_0_1_n_n).lhsIdx i q 0).val = (i 0).val := by
  simp [DotDims.lhsIdx, dot_S1x7_S7x16384_S1x16384_1_0_0_1_n_n]
  exact (Fin.val_eq_zero (i 0)).symm
theorem d2_l1 (i : S1x16384.Idx) (q : (dot_S1x7_S7x16384_S1x16384_1_0_0_1_n_n).contr.Idx) :
    ((dot_S1x7_S7x16384_S1x16384_1_0_0_1_n_n).lhsIdx i q 1).val = (q ⟨0, by decide⟩).val :=
  DotDims.lhsIdx_val_of_single _ rfl i q
theorem d2_r0 (i : S1x16384.Idx) (q : (dot_S1x7_S7x16384_S1x16384_1_0_0_1_n_n).contr.Idx) :
    ((dot_S1x7_S7x16384_S1x16384_1_0_0_1_n_n).rhsIdx i q 0).val = (q ⟨0, by decide⟩).val :=
  DotDims.rhsIdx_val_of_single _ rfl i q
theorem d2_r1 (i : S1x16384.Idx) (q : (dot_S1x7_S7x16384_S1x16384_1_0_0_1_n_n).contr.Idx) :
    ((dot_S1x7_S7x16384_S1x16384_1_0_0_1_n_n).rhsIdx i q 1).val = (i 1).val := by
  simp [DotDims.rhsIdx, dot_S1x7_S7x16384_S1x16384_1_0_0_1_n_n]
  rfl

/-! ## A bias column spread along the lanes, and the zero splat -/

/-- A column of seven spread over 16384 lanes reads, at row `r` and any lane, the column's entry `r`. -/
theorem bias7_apply (b : FVec Ideal S7x1 .f32) (r : Fin 7) (q : Fin 16384) :
    broadcastTo S7x16384 b broadcasts_S7x1_S7x16384 (ix2 r q) = b (ix2 r (0 : Fin 1)) :=
  broadcastTo_apply b broadcasts_S7x1_S7x16384 (ix2 r q) (ix2 r (0 : Fin 1)) fun a => by
    match a with
    | ⟨0, _⟩ => rfl
    | ⟨1, _⟩ => rfl

/-- A single entry spread over 16384 lanes reads that entry at every lane. -/
theorem bias1_apply (b : FVec Ideal S1x1 .f32) (q : Fin 16384) :
    broadcastTo S1x16384 b broadcasts_S1x1_S1x16384 (ix2 (0 : Fin 1) q) = b (ix2 (0 : Fin 1) (0 : Fin 1)) :=
  broadcastTo_apply b broadcasts_S1x1_S1x16384 (ix2 (0 : Fin 1) q) (ix2 (0 : Fin 1) (0 : Fin 1)) fun a => by
    match a with
    | ⟨0, _⟩ => rfl
    | ⟨1, _⟩ => rfl

/-- The zero word splat is zero at every entry. -/
theorem zero_splat_apply (i : S7x16384.Idx) :
    broadcast S7x16384 (Scalar.ofBits (F := Ideal) .f32 0x00000000#32) i = (0 : EReal) := by
  rw [broadcast_apply]
  exact Ideal.ofBits_zero_f32

/-! ## One rectified layer of seven units at an entry -/

/-- The first layer: seven units over the block's twelve feature rows, at unit `r` and lane `q`. -/
theorem layer0_apply (w : FVec Ideal S7x12 .f32) (h : FVec Ideal S12x16384 .f32) (b : FVec Ideal S7x1 .f32) (r : Fin 7) (q : Fin 16384) :
    maximumf (addf (matmul dot_S7x12_S12x16384_S7x16384_1_0_0_1_n_n none w h (constant (F := Ideal) S7x16384 .f32 0x00000000#32))
        (broadcastTo S7x16384 b broadcasts_S7x1_S7x16384)) (broadcast S7x16384 (Scalar.ofBits (F := Ideal) .f32 0x00000000#32)) (ix2 r q)
      = max (∑ a : Fin 12, w (ix2 r a) * h (ix2 a q) + b (ix2 r (0 : Fin 1))) 0 := by
  rw [maximumf_apply, addf_apply, zero_splat_apply, bias7_apply,
    Cert.Lib.Dot2.matmul_zero_ix2 dot_S7x12_S12x16384_S7x16384_1_0_0_1_n_n none d0_rank d0_size d0_l0 d0_l1 d0_r0 d0_r1 w h r q]

/-- The second layer: seven units over seven activations, at unit `r` and lane `q`. -/
theorem layer1_apply (w : FVec Ideal S7x7 .f32) (h : FVec Ideal S7x16384 .f32) (b : FVec Ideal S7x1 .f32) (r : Fin 7) (q : Fin 16384) :
    maximumf (addf (matmul dot_S7x7_S7x16384_S7x16384_1_0_0_1_n_n none w h (constant (F := Ideal) S7x16384 .f32 0x00000000#32))
        (broadcastTo S7x16384 b broadcasts_S7x1_S7x16384)) (broadcast S7x16384 (Scalar.ofBits (F := Ideal) .f32 0x00000000#32)) (ix2 r q)
      = max (∑ a : Fin 7, w (ix2 r a) * h (ix2 a q) + b (ix2 r (0 : Fin 1))) 0 := by
  rw [maximumf_apply, addf_apply, zero_splat_apply, bias7_apply,
    Cert.Lib.Dot2.matmul_zero_ix2 dot_S7x7_S7x16384_S7x16384_1_0_0_1_n_n none d1_rank d1_size d1_l0 d1_l1 d1_r0 d1_r1 w h r q]

/-- The output unit: an affine form of seven activations, at lane `q`. -/
theorem layer2_apply (w : FVec Ideal S1x7 .f32) (h : FVec Ideal S7x16384 .f32) (b : FVec Ideal S1x1 .f32) (q : Fin 16384) :
    addf (matmul dot_S1x7_S7x16384_S1x16384_1_0_0_1_n_n none w h (constant (F := Ideal) S1x16384 .f32 0x00000000#32))
        (broadcastTo S1x16384 b broadcasts_S1x1_S1x16384) (ix2 (0 : Fin 1) q)
      = ∑ a : Fin 7, w (ix2 (0 : Fin 1) a) * h (ix2 a q) + b (ix2 (0 : Fin 1) (0 : Fin 1)) := by
  rw [addf_apply, bias1_apply,
    Cert.Lib.Dot2.matmul_zero_ix2 dot_S1x7_S7x16384_S1x16384_1_0_0_1_n_n none d2_rank d2_size d2_l0 d2_l1 d2_r0 d2_r1 w h (0 : Fin 1) q]

/-! ## The body's stored row at a lane -/

/-- The first hidden layer of the column `q` of a block `x0` of twelve feature rows. -/
def blockHid0 (x0 : Vec Ideal S12x16384 .f32) (w0 : Vec Ideal S7x12 .f32) (b0 : Vec Ideal S7x1 .f32) (q : Fin 16384) (r : Fin 7) : EReal :=
  max (∑ a : Fin 12, w0 (ix2 r a) * x0 (ix2 a q) + b0 (ix2 r (0 : Fin 1))) 0

/-- THE BODY'S RESULT AT LANE `q`: the logit of the specification's network over the block's column `q`. -/
theorem pay_apply (x0 : Vec Ideal S12x16384 .f32) (x1 : Vec Ideal S7x12 .f32) (x2 : Vec Ideal S7x1 .f32) (x3 : Vec Ideal S7x7 .f32)
    (x4 : Vec Ideal S7x1 .f32) (x5 : Vec Ideal S1x7 .f32) (x6 : Vec Ideal S1x1 .f32) (q : Fin 16384) :
    k0_pay1 x0 x1 x2 x3 x4 x5 x6 (ix2 (0 : Fin 1) q) = logit x5 x6 (hid1 x3 x4 (blockHid0 x0 x1 x2 q)) := by
  unfold k0_pay1
  refine (layer2_apply x5 _ x6 q).trans ?_
  unfold logit
  refine congrArg (· + x6 (ix2 (0 : Fin 1) (0 : Fin 1))) (Finset.sum_congr rfl fun a _ => congrArg (x5 (ix2 (0 : Fin 1) a) * ·) ?_)
  refine (layer1_apply x3 _ x4 a q).trans ?_
  unfold hid1
  refine congrArg (max · 0) (congrArg (· + x4 (ix2 a (0 : Fin 1))) (Finset.sum_congr rfl fun a' _ => congrArg (x3 (ix2 a a') * ·) ?_))
  refine (layer0_apply x1 _ x2 a' q).trans ?_
  rw [shapeCast_self]
  rfl

end Cert.Proof.RefSide

end
-- ==== Proof.RefArray.lean ====
/-
  From the reference kernel's blocks to its whole result row.

  The grid has 64 points. At point `t` the kernel reads columns `16384 t … 16384 t + 16383` of the transposed
  input (twelve feature rows by 1048576 batch columns) and the six small arrays whole, and writes lanes
  `16384 t … 16384 t + 16383` of the result row. The transposed input at `(a, p)` is the input at `(p, a)`,
  so the value written at lane `p` is the logit of batch row `p`; the 64 blocks tile the row, so after the last
  point the row holds every batch row's logit.
-/
import proofs.«135626_g2000603897208126_pallasbulk_572_7_alg».proof.Proof.Gen.ReferenceIdeal.Frame
import proofs.«135626_g2000603897208126_pallasbulk_572_7_alg».proof.Proof.RefBlock
import Idealize.ShloMosaic.Lib.Pipeline.Value
import Idealize.ShloMosaic.Lib.ValueLayout
import Idealize.ShloMosaic.Lib.Tactic

noncomputable section

namespace Cert.Proof.RefSide

open Cert.ReferenceIdeal Cert.ReferenceIdeal.Gen Idealize.ShloMosaic Idealize.ShloMosaic.ValueIdx
open Cert.Proof.Mlp

open Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The argument arrays as launched -/

/-- The input matrix: one row of twelve features per batch row. -/
abbrev argX (c : Dev nD) : Vec Ideal S1048576x12 .f32 := m ((c.tc : Thread nD τ).loc main_arg0)
abbrev arg_w0 (c : Dev nD) : Vec Ideal S7x12 .f32 := m ((c.tc : Thread nD τ).loc main_arg1)
abbrev arg_b0 (c : Dev nD) : Vec Ideal S7x1 .f32 := m ((c.tc : Thread nD τ).loc main_arg2)
abbrev arg_w1 (c : Dev nD) : Vec Ideal S7x7 .f32 := m ((c.tc : Thread nD τ).loc main_arg3)
abbrev arg_b1 (c : Dev nD) : Vec Ideal S7x1 .f32 := m ((c.tc : Thread nD τ).loc main_arg4)
abbrev arg_w2 (c : Dev nD) : Vec Ideal S1x7 .f32 := m ((c.tc : Thread nD τ).loc main_arg5)
abbrev arg_b2 (c : Dev nD) : Vec Ideal S1x1 .f32 := m ((c.tc : Thread nD τ).loc main_arg6)

/-- The result row: at lane `p` the logit of batch row `p`. -/
def row (c : Dev nD) : Vec Ideal S1x1048576 .f32 := fun i =>
  rowLogit (argX m c) (arg_w0 m c) (arg_b0 m c) (arg_w1 m c) (arg_b1 m c) (arg_w2 m c) (arg_b2 m c) (i 1)

/-! ## Where each window's block sits at a grid point -/

/-- The transposed input's block at point `t` is all twelve rows of column block `t`. -/
theorem idx_x : ∀ t : Fin cfg0.N, win0_0.index t (0 : Fin 2) = 0 ∧ win0_0.index t (1 : Fin 2) = t.val :=
  (by decide +kernel : ∀ t : Fin grid0.N, _)
/-- The result's block at point `t` is lane block `t` of its one row. -/
theorem idx_o : ∀ t : Fin cfg0.N, win0_7.index t (0 : Fin 2) = 0 ∧ win0_7.index t (1 : Fin 2) = t.val :=
  (by decide +kernel : ∀ t : Fin grid0.N, _)
/-- The small array `w0` is one block, at block index zero at every point. -/
theorem idx_w0 : ∀ t : Fin cfg0.N, win0_1.index t (0 : Fin 2) = 0 ∧ win0_1.index t (1 : Fin 2) = 0 :=
  (by decide +kernel : ∀ t : Fin grid0.N, _)
/-- The small array `b0` is one block, at block index zero at every point. -/
theorem idx_b0 : ∀ t : Fin cfg0.N, win0_2.index t (0 : Fin 2) = 0 ∧ win0_2.index t (1 : Fin 2) = 0 :=
  (by decide +kernel : ∀ t : Fin grid0.N, _)
/-- The small array `w1` is one block, at block index zero at every point. -/
theorem idx_w1 : ∀ t : Fin cfg0.N, win0_3.index t (0 : Fin 2) = 0 ∧ win0_3.index t (1 : Fin 2) = 0 :=
  (by decide +kernel : ∀ t : Fin grid0.N, _)
/-- The small array `b1` is one block, at block index zero at every point. -/
theorem idx_b1 : ∀ t : Fin cfg0.N, win0_4.index t (0 : Fin 2) = 0 ∧ win0_4.index t (1 : Fin 2) = 0 :=
  (by decide +kernel : ∀ t : Fin grid0.N, _)
/-- The small array `w2` is one block, at block index zero at every point. -/
theorem idx_w2 : ∀ t : Fin cfg0.N, win0_5.index t (0 : Fin 2) = 0 ∧ win0_5.index t (1 : Fin 2) = 0 :=
  (by decide +kernel : ∀ t : Fin grid0.N, _)
/-- The small array `b2` is one block, at block index zero at every point. -/
theorem idx_b2 : ∀ t : Fin cfg0.N, win0_6.index t (0 : Fin 2) = 0 ∧ win0_6.index t (1 : Fin 2) = 0 :=
  (by decide +kernel : ∀ t : Fin grid0.N, _)

theorem lt_points (t : Fin cfg0.N) : t.val < 64 := Nat.lt_of_lt_of_eq t.isLt N_0

/-! ## The arrays the region finds, and the blocks read off them -/

/-- The region finds, under its first window, the input transposed by the host operation before it. -/
theorem xT_eq (c : Dev nD) :
    (V m c main_call0_v0 : Vec Ideal S12x1048576 .f32)
      = transpose S12x1048576 [1, 0] (argX m c) transposes_S1048576x12_S12x1048576_1_0 := by
  show StableHlo.after hostOps0 (fun b => m (c, b)) (Proc.devRef .tc main_call0_v0) = _
  after_results
  rfl

/-- The transposed input's block at point `t`, at feature row `a` and lane `q`, is the input at batch row
    `16384 t + q` and feature `a`. -/
theorem xblk_apply (c : Dev nD) (t : Fin cfg0.N) (a : Fin 12) (q : Fin 16384) (p : Fin 1048576)
    (hp : p.val = 16384 * t.val + q.val) :
    (iblk m c 0 t : Vec Ideal S12x16384 .f32) (ix2 a q) = argX m c (ix2 p a) := by
  unfold iblk
  rw [View.read_apply]
  show V m c main_call0_v0 _ = _
  rw [xT_eq]
  refine transpose_apply _ _ _ _ _ fun b => ?_
  match b with
  | ⟨0, _⟩ => show a.val = win0_0.index t (0 : Fin 2) * 12 + 1 * a.val; rw [(idx_x t).1]; omega
  | ⟨1, _⟩ => show p.val = win0_0.index t (1 : Fin 2) * 16384 + 1 * q.val; rw [(idx_x t).2, hp]; omega

/-- The block of `w0` at any point is the whole array as launched. -/
theorem w0_blk (c : Dev nD) (t : Fin cfg0.N) : (iblk m c 1 t : Vec Ideal S7x12 .f32) = arg_w0 m c := by
  funext y
  unfold iblk
  rw [View.read_apply]
  show V m c main_arg1 _ = _
  rw [V_main_arg1]
  refine congrArg _ (funext fun a => Fin.ext ?_)
  match a with
  | ⟨0, _⟩ => show win0_1.index t (0 : Fin 2) * 7 + 1 * (y 0).val = (y 0).val; rw [(idx_w0 t).1]; omega
  | ⟨1, _⟩ => show win0_1.index t (1 : Fin 2) * 12 + 1 * (y 1).val = (y 1).val; rw [(idx_w0 t).2]; omega

/-- The block of `b0` at any point is the whole array as launched. -/
theorem b0_blk (c : Dev nD) (t : Fin cfg0.N) : (iblk m c 2 t : Vec Ideal S7x1 .f32) = arg_b0 m c := by
  funext y
  unfold iblk
  rw [View.read_apply]
  show V m c main_arg2 _ = _
  rw [V_main_arg2]
  refine congrArg _ (funext fun a => Fin.ext ?_)
  match a with
  | ⟨0, _⟩ => show win0_2.index t (0 : Fin 2) * 7 + 1 * (y 0).val = (y 0).val; rw [(idx_b0 t).1]; omega
  | ⟨1, _⟩ => show win0_2.index t (1 : Fin 2) * 1 + 1 * (y 1).val = (y 1).val; rw [(idx_b0 t).2]; omega

/-- The block of `w1` at any point is the whole array as launched. -/
theorem w1_blk (c : Dev nD) (t : Fin cfg0.N) : (iblk m c 3 t : Vec Ideal S7x7 .f32) = arg_w1 m c := by
  funext y
  unfold iblk
  rw [View.read_apply]
  show V m c main_arg3 _ = _
  rw [V_main_arg3]
  refine congrArg _ (funext fun a => Fin.ext ?_)
  match a with
  | ⟨0, _⟩ => show win0_3.index t (0 : Fin 2) * 7 + 1 * (y 0).val = (y 0).val; rw [(idx_w1 t).1]; omega
  | ⟨1, _⟩ => show win0_3.index t (1 : Fin 2) * 7 + 1 * (y 1).val = (y 1).val; rw [(idx_w1 t).2]; omega

/-- The block of `b1` at any point is the whole array as launched. -/
theorem b1_blk (c : Dev nD) (t : Fin cfg0.N) : (iblk m c 4 t : Vec Ideal S7x1 .f32) = arg_b1 m c := by
  funext y
  unfold iblk
  rw [View.read_apply]
  show V m c main_arg4 _ = _
  rw [V_main_arg4]
  refine congrArg _ (funext fun a => Fin.ext ?_)
  match a with
  | ⟨0, _⟩ => show win0_4.index t (0 : Fin 2) * 7 + 1 * (y 0).val = (y 0).val; rw [(idx_b1 t).1]; omega
  | ⟨1, _⟩ => show win0_4.index t (1 : Fin 2) * 1 + 1 * (y 1).val = (y 1).val; rw [(idx_b1 t).2]; omega

/-- The block of `w2` at any point is the whole array as launched. -/
theorem w2_blk (c : Dev nD) (t : Fin cfg0.N) : (iblk m c 5 t : Vec Ideal S1x7 .f32) = arg_w2 m c := by
  funext y
  unfold iblk
  rw [View.read_apply]
  show V m c main_arg5 _ = _
  rw [V_main_arg5]
  refine congrArg _ (funext fun a => Fin.ext ?_)
  match a with
  | ⟨0, _⟩ => show win0_5.index t (0 : Fin 2) * 1 + 1 * (y 0).val = (y 0).val; rw [(idx_w2 t).1]; omega
  | ⟨1, _⟩ => show win0_5.index t (1 : Fin 2) * 7 + 1 * (y 1).val = (y 1).val; rw [(idx_w2 t).2]; omega

/-- The block of `b2` at any point is the whole array as launched. -/
theorem b2_blk (c : Dev nD) (t : Fin cfg0.N) : (iblk m c 6 t : Vec Ideal S1x1 .f32) = arg_b2 m c := by
  funext y
  unfold iblk
  rw [View.read_apply]
  show V m c main_arg6 _ = _
  rw [V_main_arg6]
  refine congrArg _ (funext fun a => Fin.ext ?_)
  match a with
  | ⟨0, _⟩ => show win0_6.index t (0 : Fin 2) * 1 + 1 * (y 0).val = (y 0).val; rw [(idx_b2 t).1]; omega
  | ⟨1, _⟩ => show win0_6.index t (1 : Fin 2) * 1 + 1 * (y 1).val = (y 1).val; rw [(idx_b2 t).2]; omega

/-! ## What point `t` stores, lane by lane -/

/-- The first hidden layer over column `q` of the block at point `t` is the first hidden layer of batch row
    `16384 t + q`. -/
theorem hid0_blk (c : Dev nD) (t : Fin cfg0.N) (q : Fin 16384) (p : Fin 1048576) (hp : p.val = 16384 * t.val + q.val) :
    blockHid0 (iblk m c 0 t) (arg_w0 m c) (arg_b0 m c) q = hid0 (argX m c) (arg_w0 m c) (arg_b0 m c) p := by
  funext r
  unfold blockHid0 hid0
  exact congrArg (max · 0) (congrArg (· + arg_b0 m c (ix2 r (0 : Fin 1)))
    (Finset.sum_congr rfl fun a _ => congrArg (arg_w0 m c (ix2 r a) * ·) (xblk_apply m c t a q p hp)))

/-- THE STORED ROW AT A LANE: at point `t`, lane `q` of the body's result is the logit of batch row `16384 t + q`. -/
theorem stored_apply (c : Dev nD) (t : Fin cfg0.N) (q : Fin 16384) (p : Fin 1048576) (hp : p.val = 16384 * t.val + q.val) :
    k0_pay1 (iblk m c 0 t) (iblk m c 1 t) (iblk m c 2 t) (iblk m c 3 t) (iblk m c 4 t) (iblk m c 5 t) (iblk m c 6 t) (ix2 (0 : Fin 1) q)
      = row m c (ix2 (0 : Fin 1) p) := by
  refine (pay_apply (iblk m c 0 t) (iblk m c 1 t) (iblk m c 2 t) (iblk m c 3 t) (iblk m c 4 t) (iblk m c 5 t) (iblk m c 6 t) q).trans ?_
  rw [w0_blk m c t, b0_blk m c t, w1_blk m c t, b1_blk m c t, w2_blk m c t, b2_blk m c t, hid0_blk m c t q p hp]
  rfl

/-- A row of 16384 lanes that agrees, lane by lane, with lanes `16384 t …` of a row `R` of 1048576 is the block of
    `R` the result window has at point `t`. -/
theorem eq_read_blk (t : Fin cfg0.N) (R : Vec Ideal S1x1048576 .f32) (Y : Vec Ideal S1x16384 .f32)
    (h : ∀ (q : Fin 16384) (p : Fin 1048576), p.val = 16384 * t.val + q.val → Y (ix2 (0 : Fin 1) q) = R (ix2 (0 : Fin 1) p)) :
    Y = ((cfg0.win 7).blk t).view.read (Elt Ideal) R := by
  funext j
  obtain ⟨z, q, rfl⟩ : ∃ (z : Fin 1) (q : Fin 16384), j = ix2 z q := ⟨j 0, j 1, eq_ix2 j⟩
  obtain rfl : z = 0 := Subsingleton.elim _ _
  have ht := lt_points t
  rw [View.read_apply]
  show Y (ix2 (0 : Fin 1) q) = R (((cfg0.win 7).blk t).view.emb (ix2 (0 : Fin 1) q))
  refine (h q ⟨16384 * t.val + q.val, by omega⟩ rfl).trans (congrArg R (funext fun a => Fin.ext ?_))
  match a with
  | ⟨0, _⟩ => show 0 = win0_7.index t (0 : Fin 2) * 1 + 1 * 0; rw [(idx_o t).1]
  | ⟨1, _⟩ => show 16384 * t.val + q.val = win0_7.index t (1 : Fin 2) * 16384 + 1 * q.val; rw [(idx_o t).2]; omega

/-- WHAT POINT `t` WRITES BACK is block `t` of the result row. -/
theorem flushed_eq (c : Dev nD) (t : Fin cfg0.N) :
    (dats m 0 c).flushed 7 t = ((cfg0.win 7).blk t).view.read (Elt Ideal) (row m c) := by
  show (cfg0.win 7).cut (grid0.coords t) ((dats m 0 c).after 7 t) = _
  rw [after0_7]
  unfold out0_7
  rw [View.canon_unit_zero hz]
  simp only [View.ld_unit_zero (S := S12x16384) hz, View.ld_unit_zero (S := S7x12) hz, View.ld_unit_zero (S := S7x1) hz,
    View.ld_unit_zero (S := S7x7) hz, View.ld_unit_zero (S := S1x7) hz, View.ld_unit_zero (S := S1x1) hz]
  exact eq_read_blk t (row m c)
    (k0_pay1 (iblk m c 0 t) (iblk m c 1 t) (iblk m c 2 t) (iblk m c 3 t) (iblk m c 4 t) (iblk m c 5 t) (iblk m c 6 t))
    (fun q p hp => stored_apply m c t q p hp)

/-! ## The blocks tile the row -/

/-- An index of the result row is in point `t`'s block iff each coordinate is in the block's range on its axis. -/
theorem mem_blk (t : Fin cfg0.N) (i : S1x1048576.Idx) :
    i ∈ ((cfg0.win 7).blk t).view.set ↔ ∀ a : Fin 2, win0_7.index t a * S1x16384.size a ≤ (i a).val
      ∧ (i a).val < win0_7.index t a * S1x16384.size a + S1x16384.size a := by
  show i ∈ ((View.whole main_call0_v1).slice (win0_7.rect t)).set ↔ _
  rw [View.set_slice_whole, Rect.mem_set_unit]
  exact Iff.rfl

/-- THE RESULT ROW after the last point holds every batch row's logit. -/
theorem arr_row (c : Dev nD) : (dats m 0 c).arrAt 7 cfg0.N = row m c :=
  (dats m 0 c).arrAt_eq_of_cover 7 (row m c) (fun t _ => flushed_eq m c t) fun (i : S1x1048576.Idx) => by
    have hi : (i 1).val < 1048576 := (i 1).isLt
    have h0 : (i 0).val < 1 := (i 0).isLt
    have hN : cfg0.N = 64 := N_0
    refine ⟨⟨(i 1).val / 16384, by rw [hN]; omega⟩, flush0_7 _, ?_⟩
    rw [mem_blk]
    obtain ⟨e0, e1⟩ := idx_o ⟨(i 1).val / 16384, by rw [hN]; omega⟩
    intro a
    match a with
    | ⟨0, _⟩ =>
      show win0_7.index _ (0 : Fin 2) * 1 ≤ (i 0).val ∧ (i 0).val < win0_7.index _ (0 : Fin 2) * 1 + 1
      rw [e0]; omega
    | ⟨1, _⟩ =>
      show win0_7.index _ (1 : Fin 2) * 16384 ≤ (i 1).val ∧ (i 1).val < win0_7.index _ (1 : Fin 2) * 16384 + 16384
      rw [e1]; show (i 1).val / 16384 * 16384 ≤ (i 1).val ∧ (i 1).val < (i 1).val / 16384 * 16384 + 16384; omega

end Cert.Proof.RefSide

end
-- ==== Proof.RefRun.lean ====
/-
  The reference program's run, read as the specification's network.

  After the kernel region the host transposes the result row (one row of 1048576 logits) into a column: the entry at
  `(p, 0)` of the program's result is the row's lane `p`, the logit of batch row `p`. The seven argument arrays are
  never written: they end as launched.
-/
import proofs.«135626_g2000603897208126_pallasbulk_572_7_alg».proof.Proof.RefArray

noncomputable section

namespace Cert.Proof.RefSide

open Cert.ReferenceIdeal Cert.ReferenceIdeal.Gen Idealize.ShloMosaic Idealize.ShloMosaic.ValueIdx
open Cert.Proof.Mlp

open Idealize.ShloMosaic.TcCoe Idealize.SL.Sem
open Idealize.ShloMosaic.Pipeline (Dat)

/-- The host operation after the region turns the result row into the column of the specification. -/
theorem tail_eq (m : (ℓ : Loc nD τ sig) → Buf (Elt Ideal) ℓ) (c : Dev nD) :
    Pipeline.afterTail₀ cfgs (dats m) 0 (V0 m) [hostOps1] c main_v0
      = mlp (argX m c) (arg_w0 m c) (arg_b0 m c) (arg_w1 m c) (arg_b1 m c) (arg_w2 m c) (arg_b2 m c) := by
  unfold Pipeline.afterTail₀
  show StableHlo.after hostOps1 _ (Proc.devRef .tc main_v0) = _
  after_results
  have e : Pipeline.withArrays spec0 c (V0 m c) (fun w => (dats m 0 c).arrAt w cfg0.N) (Proc.devRef .tc main_call0_v1) = row m c :=
    (Pipeline.withArrays_arr spec0 launch0.win.arr_inj c _ _ 7).trans (arr_row m c)
  show transpose S1048576x1 [1, 0] (Pipeline.withArrays spec0 c (V0 m c) (fun w => (dats m 0 c).arrAt w cfg0.N)
    (Proc.devRef .tc main_call0_v1)) transposes_S1x1048576_S1048576x1_1_0 = _
  rw [e]
  funext i
  obtain ⟨p, z, rfl⟩ : ∃ (p : Fin 1048576) (z : Fin 1), i = ix2 p z := ⟨i 0, i 1, eq_ix2 i⟩
  obtain rfl : z = 0 := Subsingleton.elim _ _
  exact transpose_ix2_apply (row m c) transposes_S1x1048576_S1048576x1_1_0 p (0 : Fin 1)

/-- THE RUN: from any memory with zero counters the reference program terminates, its result is the network of the
    specification applied to the seven argument arrays as launched, and those arrays end unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
          = Cert.Proof.Mlp.mlp (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Proof.RefSide

end
-- ==== Proof.lean ====
/-
  The certificate's five claims.

  Both kernel programs (the printed one at the word-level instance, its idealization at the ideal instance) run the same
  body on the same pipeline, so one frame proof, generic in the float instance, serves both: the scratch the body
  carries between grid points is tracked in the region invariant, and the argument arrays are never written. The
  reference's frame is the one its literal-rectangle body admits whole. The idealization rewrote no operation, so
  `preserves` has nothing to state. For the algebraic claim both programs' result arrays are one function of the
  argument arrays, the three-layer network of `Proof/Spec.lean`, read row by row on the extended reals: the kernel's
  by unrolling its three-point software pipeline (`Proof/KIBridge.lean`), the reference's block by block
  (`Proof/RefRun.lean`). No finiteness is used: the only law is that zero weights kill their terms.
-/
import proofs.«135626_g2000603897208126_pallasbulk_572_7_alg».proof.Defs
import proofs.«135626_g2000603897208126_pallasbulk_572_7_alg».proof.Proof.Gen.Kernel
import proofs.«135626_g2000603897208126_pallasbulk_572_7_alg».proof.Proof.Gen.KernelIdeal
import proofs.«135626_g2000603897208126_pallasbulk_572_7_alg».proof.Proof.Gen.ReferenceIdeal
import proofs.«135626_g2000603897208126_pallasbulk_572_7_alg».proof.Proof.Gen.ReferenceIdeal.Frame
import proofs.«135626_g2000603897208126_pallasbulk_572_7_alg».proof.Proof.Gen.Pre_finite_inputs
import proofs.«135626_g2000603897208126_pallasbulk_572_7_alg».proof.Proof.KData
import proofs.«135626_g2000603897208126_pallasbulk_572_7_alg».proof.Proof.KIBridge
import proofs.«135626_g2000603897208126_pallasbulk_572_7_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Proof.K.frame m ρ
theorem frame_ki : Cert.frame_KernelIdeal := fun m ρ _ => Cert.Proof.KI.frame m ρ
theorem frame_ri : Cert.frame_ReferenceIdeal := fun m ρ _ => Cert.ReferenceIdeal.Gen.frame m ρ

/-- The idealization is the program's own text read at the ideal instance: no rewrite to account for. -/
theorem preserves : Cert.preserves_Kernel_KernelIdeal := trivial

/-- Both runs end with the network's function of the (agreeing) argument arrays in the result buffer. -/
theorem algebraic : Cert.algebraic_KernelIdeal_ReferenceIdeal := by
  intro m ρ m' ρ' _ hagree
  refine ⟨fun c => Cert.Proof.Mlp.mlp (Cert.Proof.KI.aX m c) (Cert.Proof.KI.aW0 m c) (Cert.Proof.KI.aB0 m c)
    (Cert.Proof.KI.aW1 m c) (Cert.Proof.KI.aB1 m c) (Cert.Proof.KI.aW2 m c) (Cert.Proof.KI.aB2 m c), Cert.Proof.KI.run_value m ρ, ?_⟩
  refine (θ_run Cert.ReferenceIdeal.defs _ _).mono (fun _ h c => ⟨(h c).1.trans ?_, (h c).2⟩)
    (Cert.Proof.RefSide.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
